-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S163968x128 : Shape := ⟨2, ![163968, 128]⟩
abbrev S128x64 : Shape := ⟨2, ![128, 64]⟩
abbrev S64 : Shape := ⟨1, ![64]⟩
abbrev S2x3932160 : Shape := ⟨2, ![2, 3932160]⟩
abbrev S163968 : Shape := ⟨1, ![163968]⟩
abbrev S_ : Shape := ⟨0, ![]⟩

class Facts : Prop where
  bcast_S_S163968x128 : S_.BroadcastsInDim S163968x128 (![] : Fin 0 → Fin S163968x128.rank)
  reducesTo_S163968x128_S_d0_1 : S163968x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S163968x128 .f32) (main_arg1 : FVec F S128x64 .f32) (main_arg2 : FVec F S64 .f32) (main_arg3 : IVec S2x3932160 32) (main_arg4 : IVec S163968 32) : IVec S_ 1 :=
  let main_v0 : FVec F S163968x128 .f32 := Host.absf main_arg0
  let main_cst : FVec F S_ .f32 := constant S_ .f32 0x7F800000#32
  let main_v1 : FVec F S163968x128 .f32 := broadcastInDim S163968x128 ![] bcast_S_S163968x128 main_cst
  let main_v2 : IVec S163968x128 1 := cmpf .olt main_v0 main_v1
  let main_c : IVec S_ 1 := constantI S_ 1 1#1
  let main_v3 : IVec S_ 1 := (fun x v => Host.reduce IntOp.andi x v reducesTo_S163968x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S163968x128 : Shape := ⟨2, ![163968, 128]⟩
abbrev S128x64 : Shape := ⟨2, ![128, 64]⟩
abbrev S64 : Shape := ⟨1, ![64]⟩
abbrev S2x3932160 : Shape := ⟨2, ![2, 3932160]⟩
abbrev S163968 : Shape := ⟨1, ![163968]⟩
abbrev S163968x64 : Shape := ⟨2, ![163968, 64]⟩
abbrev S7808x128 : Shape := ⟨2, ![7808, 128]⟩
abbrev S7808x64 : Shape := ⟨2, ![7808, 64]⟩
abbrev S_ : Shape := ⟨0, ![]⟩
abbrev S655488x64 : Shape := ⟨2, ![655488, 64]⟩
abbrev S163968x1 : Shape := ⟨2, ![163968, 1]⟩
abbrev S1x3932160 : Shape := ⟨2, ![1, 3932160]⟩
abbrev S3932160 : Shape := ⟨1, ![3932160]⟩
abbrev S655488 : Shape := ⟨1, ![655488]⟩
abbrev S3932160x1 : Shape := ⟨2, ![3932160, 1]⟩
abbrev S3932160x64 : Shape := ⟨2, ![3932160, 64]⟩
abbrev S655488x1 : Shape := ⟨2, ![655488, 1]⟩
abbrev S1x64 : Shape := ⟨2, ![1, 64]⟩
abbrev S9104x64 : Shape := ⟨2, ![9104, 64]⟩
abbrev S9104x1 : Shape := ⟨2, ![9104, 1]⟩

abbrev nBuf : Space → Nat
  | .hbm => 70
  | .vmem => 14
  | .smem => 0
  | _ => 0

abbrev bufTy : (tb : Table) → Fin (tcTables nBuf tb) → BufTy
  | .hbm, ⟨0, _⟩ => ⟨S163968x128, .f32⟩
  | .hbm, ⟨1, _⟩ => ⟨S128x64, .f32⟩
  | .hbm, ⟨2, _⟩ => ⟨S64, .f32⟩
  | .hbm, ⟨3, _⟩ => ⟨S2x3932160, .i32⟩
  | .hbm, ⟨4, _⟩ => ⟨S163968, .i32⟩
  | .hbm, ⟨5, _⟩ => ⟨S163968x64, .f32⟩
  | .hbm, ⟨6, _⟩ => ⟨S_, .f32⟩
  | .hbm, ⟨7, _⟩ => ⟨S655488x64, .f32⟩
  | .hbm, ⟨8, _⟩ => ⟨S_, .i32⟩
  | .hbm, ⟨9, _⟩ => ⟨S163968, .i32⟩
  | .hbm, ⟨10, _⟩ => ⟨S163968, .i1⟩
  | .hbm, ⟨11, _⟩ => ⟨S_, .i32⟩
  | .hbm, ⟨12, _⟩ => ⟨S163968, .i32⟩
  | .hbm, ⟨13, _⟩ => ⟨S163968, .i32⟩
  | .hbm, ⟨14, _⟩ => ⟨S163968, .i32⟩
  | .hbm, ⟨15, _⟩ => ⟨S163968x1, .i32⟩
  | .hbm, ⟨16, _⟩ => ⟨S655488x64, .f32⟩
  | .hbm, ⟨17, _⟩ => ⟨S1x3932160, .i32⟩
  | .hbm, ⟨18, _⟩ => ⟨S3932160, .i32⟩
  | .hbm, ⟨19, _⟩ => ⟨S1x3932160, .i32⟩
  | .hbm, ⟨20, _⟩ => ⟨S3932160, .i32⟩
  | .hbm, ⟨21, _⟩ => ⟨S_, .f32⟩
  | .hbm, ⟨22, _⟩ => ⟨S3932160, .f32⟩
  | .hbm, ⟨23, _⟩ => ⟨S_, .f32⟩
  | .hbm, ⟨24, _⟩ => ⟨S655488, .f32⟩
  | .hbm, ⟨25, _⟩ => ⟨S3932160x1, .i32⟩
  | .hbm, ⟨26, _⟩ => ⟨S655488, .f32⟩
  | .hbm, ⟨27, _⟩ => ⟨S_, .f32⟩
  | .hbm, ⟨28, _⟩ => ⟨S655488, .f32⟩
  | .hbm, ⟨29, _⟩ => ⟨S655488, .f32⟩
  | .hbm, ⟨30, _⟩ => ⟨S655488, .f32⟩
  | .hbm, ⟨31, _⟩ => ⟨S_, .i32⟩
  | .hbm, ⟨32, _⟩ => ⟨S3932160, .i32⟩
  | .hbm, ⟨33, _⟩ => ⟨S3932160, .i1⟩
  | .hbm, ⟨34, _⟩ => ⟨S_, .i32⟩
  | .hbm, ⟨35, _⟩ => ⟨S3932160, .i32⟩
  | .hbm, ⟨36, _⟩ => ⟨S3932160, .i32⟩
  | .hbm, ⟨37, _⟩ => ⟨S3932160, .i32⟩
  | .hbm, ⟨38, _⟩ => ⟨S3932160x1, .i32⟩
  | .hbm, ⟨39, _⟩ => ⟨S3932160, .f32⟩
  | .hbm, ⟨40, _⟩ => ⟨S_, .i32⟩
  | .hbm, ⟨41, _⟩ => ⟨S3932160, .i32⟩
  | .hbm, ⟨42, _⟩ => ⟨S3932160, .i1⟩
  | .hbm, ⟨43, _⟩ => ⟨S_, .i32⟩
  | .hbm, ⟨44, _⟩ => ⟨S3932160, .i32⟩
  | .hbm, ⟨45, _⟩ => ⟨S3932160, .i32⟩
  | .hbm, ⟨46, _⟩ => ⟨S3932160, .i32⟩
  | .hbm, ⟨47, _⟩ => ⟨S3932160x1, .i32⟩
  | .hbm, ⟨48, _⟩ => ⟨S3932160, .f32⟩
  | .hbm, ⟨49, _⟩ => ⟨S3932160, .f32⟩
  | .hbm, ⟨50, _⟩ => ⟨S3932160x1, .f32⟩
  | .hbm, ⟨51, _⟩ => ⟨S_, .i32⟩
  | .hbm, ⟨52, _⟩ => ⟨S3932160, .i32⟩
  | .hbm, ⟨53, _⟩ => ⟨S3932160, .i1⟩
  | .hbm, ⟨54, _⟩ => ⟨S_, .i32⟩
  | .hbm, ⟨55, _⟩ => ⟨S3932160, .i32⟩
  | .hbm, ⟨56, _⟩ => ⟨S3932160, .i32⟩
  | .hbm, ⟨57, _⟩ => ⟨S3932160, .i32⟩
  | .hbm, ⟨58, _⟩ => ⟨S3932160x1, .i32⟩
  | .hbm, ⟨59, _⟩ => ⟨S3932160x64, .f32⟩
  | .hbm, ⟨60, _⟩ => ⟨S3932160x64, .f32⟩
  | .hbm, ⟨61, _⟩ => ⟨S3932160x64, .f32⟩
  | .hbm, ⟨62, _⟩ => ⟨S_, .f32⟩
  | .hbm, ⟨63, _⟩ => ⟨S655488x64, .f32⟩
  | .hbm, ⟨64, _⟩ => ⟨S3932160x1, .i32⟩
  | .hbm, ⟨65, _⟩ => ⟨S655488x64, .f32⟩
  | .hbm, ⟨66, _⟩ => ⟨S655488, .f32⟩
  | .hbm, ⟨67, _⟩ => ⟨S655488x1, .f32⟩
  | .hbm, ⟨68, _⟩ => ⟨S1x64, .f32⟩
  | .hbm, ⟨69, _⟩ => ⟨S655488x64, .f32⟩
  | .local _ .vmem, ⟨0, _⟩ => ⟨S7808x128, .f32⟩
  | .local _ .vmem, ⟨1, _⟩ => ⟨S7808x128, .f32⟩
  | .local _ .vmem, ⟨2, _⟩ => ⟨S128x64, .f32⟩
  | .local _ .vmem, ⟨3, _⟩ => ⟨S7808x64, .f32⟩
  | .local _ .vmem, ⟨4, _⟩ => ⟨S7808x64, .f32⟩
  | .local _ .vmem, ⟨5, _⟩ => ⟨S9104x64, .f32⟩
  | .local _ .vmem, ⟨6, _⟩ => ⟨S9104x64, .f32⟩
  | .local _ .vmem, ⟨7, _⟩ => ⟨S9104x64, .f32⟩
  | .local _ .vmem, ⟨8, _⟩ => ⟨S9104x64, .f32⟩
  | .local _ .vmem, ⟨9, _⟩ => ⟨S9104x1, .f32⟩
  | .local _ .vmem, ⟨10, _⟩ => ⟨S9104x1, .f32⟩
  | .local _ .vmem, ⟨11, _⟩ => ⟨S1x64, .f32⟩
  | .local _ .vmem, ⟨12, _⟩ => ⟨S9104x64, .f32⟩
  | .local _ .vmem, ⟨13, _⟩ => ⟨S9104x64, .f32⟩
  | _, _ => ⟨S163968x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7808x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7808x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9104x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9104x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S9104x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S9104x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S7808x128_S7808x128_0_0 : ∀ a, (![0, 0] : Fin 2 → Nat) a + S7808x128.size a ≤ S7808x128.size a
  h_S7808x128 : 0 < S7808x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S7808x64_S7808x64_0_0 : ∀ a, (![0, 0] : Fin 2 → Nat) a + S7808x64.size a ≤ S7808x64.size a
  h_S7808x64 : 0 < S7808x64.numel
  bcast_S_S655488x64 : S_.BroadcastsInDim S655488x64 (![] : Fin 0 → Fin S655488x64.rank)
  bcast_S_S163968 : S_.BroadcastsInDim S163968 (![] : Fin 0 → Fin S163968.rank)
  bcast_S163968_S163968x1_0 : S163968.BroadcastsInDim S163968x1 (![0] : Fin 1 → Fin S163968x1.rank)
  slices_S2x3932160_S1x3932160_0_0 : S2x3932160.Slices ![0, 0] S1x3932160
  shapeCasts_S1x3932160_S3932160 : S1x3932160.ShapeCasts S3932160
  slices_S2x3932160_S1x3932160_1_0 : S2x3932160.Slices ![1, 0] S1x3932160
  bcast_S_S3932160 : S_.BroadcastsInDim S3932160 (![] : Fin 0 → Fin S3932160.rank)
  bcast_S_S655488 : S_.BroadcastsInDim S655488 (![] : Fin 0 → Fin S655488.rank)
  bcast_S3932160_S3932160x1_0 : S3932160.BroadcastsInDim S3932160x1 (![0] : Fin 1 → Fin S3932160x1.rank)
  bcast_S3932160x1_S3932160x64_0_1 : S3932160x1.BroadcastsInDim S3932160x64 (![0, 1] : Fin 2 → Fin S3932160x64.rank)
  bcast_S655488_S655488x1_0 : S655488.BroadcastsInDim S655488x1 (![0] : Fin 1 → Fin S655488x1.rank)
  shapeCasts_S64_S1x64 : S64.ShapeCasts S1x64
  inb_S9104x64_S9104x64_0_0 : ∀ a, (![0, 0] : Fin 2 → Nat) a + S9104x64.size a ≤ S9104x64.size a
  h_S9104x64 : 0 < S9104x64.numel
  shapeCasts_S9104x64_S9104x64 : S9104x64.ShapeCasts S9104x64
  inb_S9104x1_S9104x1_0_0 : ∀ a, (![0, 0] : Fin 2 → Nat) a + S9104x1.size a ≤ S9104x1.size a
  h_S9104x1 : 0 < S9104x1.numel
  shapeCasts_S9104x1_S9104x1 : S9104x1.ShapeCasts S9104x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S9104x64 : S1x64.Broadcasts S9104x64
  broadcasts_S9104x1_S9104x64 : S9104x1.Broadcasts S9104x64
  dot_S7808x128_S128x64_S7808x64_1_0_0_1_n_n_wf : DotDims.WF S7808x128 S128x64 S7808x64 [1] [0] [0] [1] [] []
  scatter_S655488x64_S163968x1_S163968x64_1_0_0_1_wf : ScatterDims.WF S655488x64 S163968x1 S163968x64 [1] [0] [0] 1
  scatter_S655488_S3932160x1_S3932160_n_0_0_1_wf : ScatterDims.WF S655488 S3932160x1 S3932160 [] [0] [0] 1
  gather_S655488_S3932160x1_S3932160_n_0_n_n_0_1_1_wf : GatherDims.WF S655488 S3932160x1 S3932160 [] [0] [] [0] [] 1 ![1]
  gather_S655488x64_S3932160x1_S3932160x64_1_0_n_n_0_1_164_wf : GatherDims.WF S655488x64 S3932160x1 S3932160x64 [1] [0] [] [0] [] 1 ![1, 64]
  scatter_S655488x64_S3932160x1_S3932160x64_1_0_0_1_wf : ScatterDims.WF S655488x64 S3932160x1 S3932160x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7808x128.size a ≤ S163968x128.size a
  hwx0_0 : ∀ i : grid0.Coords, EltTy.bits .f32 = 32 ∨ (Rect.block (s := S163968x128) S7808x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7808x64.size a ≤ S163968x64.size a
  hwx0_2 : ∀ i : grid0.Coords, EltTy.bits .f32 = 32 ∨ (Rect.block (s := S163968x64) S7808x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9104x64.size a ≤ S655488x64.size a
  hwx1_0 : ∀ i : grid1.Coords, EltTy.bits .f32 = 32 ∨ (Rect.block (s := S655488x64) S9104x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S9104x64.size a ≤ S655488x64.size a
  hwx1_1 : ∀ i : grid1.Coords, EltTy.bits .f32 = 32 ∨ (Rect.block (s := S655488x64) S9104x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S9104x1.size a ≤ S655488x1.size a
  hwx1_2 : ∀ i : grid1.Coords, EltTy.bits .f32 = 32 ∨ (Rect.block (s := S655488x1) S9104x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S9104x64.size a ≤ S655488x64.size a
  hwx1_4 : ∀ i : grid1.Coords, EltTy.bits .f32 = 32 ∨ (Rect.block (s := S655488x64) S9104x64.size (cc1_transform_4 i) (hinb1_4 i)).WholeWords (EltTy.packing .f32)

variable [Facts₀]

def dot_S7808x128_S128x64_S7808x64_1_0_0_1_n_n : DotDims S7808x128 S128x64 S7808x64 where
  lhsContracting := [1]
  rhsContracting := [0]
  lhsNonContracting := [0]
  rhsNonContracting := [1]
  lhsBatch := []
  rhsBatch := []
  wf := dot_S7808x128_S128x64_S7808x64_1_0_0_1_n_n_wf
def scatter_S655488x64_S163968x1_S163968x64_1_0_0_1 : ScatterDims S655488x64 S163968x1 S163968x64 where
  updateWindowDims := [1]
  insertedWindowDims := [0]
  scatterDimsToOperandDims := [0]
  indexVectorDim := 1
  wf := scatter_S655488x64_S163968x1_S163968x64_1_0_0_1_wf
def scatter_S655488_S3932160x1_S3932160_n_0_0_1 : ScatterDims S655488 S3932160x1 S3932160 where
  updateWindowDims := []
  insertedWindowDims := [0]
  scatterDimsToOperandDims := [0]
  indexVectorDim := 1
  wf := scatter_S655488_S3932160x1_S3932160_n_0_0_1_wf
def gather_S655488_S3932160x1_S3932160_n_0_n_n_0_1_1 : GatherDims S655488 S3932160x1 S3932160 where
  offsetDims := []
  collapsedSliceDims := [0]
  operandBatchingDims := []
  startIndicesBatchingDims := []
  startIndexMap := [0]
  indexVectorDim := 1
  sliceSizes := ![1]
  wf := gather_S655488_S3932160x1_S3932160_n_0_n_n_0_1_1_wf
def gather_S655488x64_S3932160x1_S3932160x64_1_0_n_n_0_1_164 : GatherDims S655488x64 S3932160x1 S3932160x64 where
  offsetDims := [1]
  collapsedSliceDims := [0]
  operandBatchingDims := []
  startIndicesBatchingDims := []
  startIndexMap := [0]
  indexVectorDim := 1
  sliceSizes := ![1, 64]
  wf := gather_S655488x64_S3932160x1_S3932160x64_1_0_n_n_0_1_164_wf
def scatter_S655488x64_S3932160x1_S3932160x64_1_0_0_1 : ScatterDims S655488x64 S3932160x1 S3932160x64 where
  updateWindowDims := [1]
  insertedWindowDims := [0]
  scatterDimsToOperandDims := [0]
  indexVectorDim := 1
  wf := scatter_S655488x64_S3932160x1_S3932160x64_1_0_0_1_wf

abbrev win0_0 : Pipeline.Window sig grid0 :=
  Pipeline.Window.ofSpec (Memref.whole main_arg0) S7808x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S7808x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S9104x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S9104x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S9104x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S9104x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S163968x128 : Shape := ⟨2, ![163968, 128]⟩
abbrev S128x64 : Shape := ⟨2, ![128, 64]⟩
abbrev S64 : Shape := ⟨1, ![64]⟩
abbrev S2x3932160 : Shape := ⟨2, ![2, 3932160]⟩
abbrev S163968 : Shape := ⟨1, ![163968]⟩
abbrev S_ : Shape := ⟨0, ![]⟩
abbrev S655488x128 : Shape := ⟨2, ![655488, 128]⟩
abbrev S163968x1 : Shape := ⟨2, ![163968, 1]⟩
abbrev S655488x64 : Shape := ⟨2, ![655488, 64]⟩
abbrev S1x3932160 : Shape := ⟨2, ![1, 3932160]⟩
abbrev S3932160 : Shape := ⟨1, ![3932160]⟩
abbrev S655488 : Shape := ⟨1, ![655488]⟩
abbrev S3932160x1 : Shape := ⟨2, ![3932160, 1]⟩
abbrev S3932160x64 : Shape := ⟨2, ![3932160, 64]⟩
abbrev S655488x1 : Shape := ⟨2, ![655488, 1]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S163968x128, .f32⟩
  | .hbm, ⟨1, _⟩ => ⟨S128x64, .f32⟩
  | .hbm, ⟨2, _⟩ => ⟨S64, .f32⟩
  | .hbm, ⟨3, _⟩ => ⟨S2x3932160, .i32⟩
  | .hbm, ⟨4, _⟩ => ⟨S163968, .i32⟩
  | .hbm, ⟨5, _⟩ => ⟨S_, .f32⟩
  | .hbm, ⟨6, _⟩ => ⟨S655488x128, .f32⟩
  | .hbm, ⟨7, _⟩ => ⟨S_, .i32⟩
  | .hbm, ⟨8, _⟩ => ⟨S163968, .i32⟩
  | .hbm, ⟨9, _⟩ => ⟨S163968, .i1⟩
  | .hbm, ⟨10, _⟩ => ⟨S_, .i32⟩
  | .hbm, ⟨11, _⟩ => ⟨S163968, .i32⟩
  | .hbm, ⟨12, _⟩ => ⟨S163968, .i32⟩
  | .hbm, ⟨13, _⟩ => ⟨S163968, .i32⟩
  | .hbm, ⟨14, _⟩ => ⟨S163968x1, .i32⟩
  | .hbm, ⟨15, _⟩ => ⟨S655488x128, .f32⟩
  | .hbm, ⟨16, _⟩ => ⟨S655488x64, .f32⟩
  | .hbm, ⟨17, _⟩ => ⟨S1x3932160, .i32⟩
  | .hbm, ⟨18, _⟩ => ⟨S3932160, .i32⟩
  | .hbm, ⟨19, _⟩ => ⟨S1x3932160, .i32⟩
  | .hbm, ⟨20, _⟩ => ⟨S3932160, .i32⟩
  | .hbm, ⟨21, _⟩ => ⟨S_, .f32⟩
  | .hbm, ⟨22, _⟩ => ⟨S3932160, .f32⟩
  | .hbm, ⟨23, _⟩ => ⟨S_, .f32⟩
  | .hbm, ⟨24, _⟩ => ⟨S655488, .f32⟩
  | .hbm, ⟨25, _⟩ => ⟨S3932160x1, .i32⟩
  | .hbm, ⟨26, _⟩ => ⟨S655488, .f32⟩
  | .hbm, ⟨27, _⟩ => ⟨S_, .f32⟩
  | .hbm, ⟨28, _⟩ => ⟨S655488, .f32⟩
  | .hbm, ⟨29, _⟩ => ⟨S655488, .f32⟩
  | .hbm, ⟨30, _⟩ => ⟨S655488, .f32⟩
  | .hbm, ⟨31, _⟩ => ⟨S_, .i32⟩
  | .hbm, ⟨32, _⟩ => ⟨S3932160, .i32⟩
  | .hbm, ⟨33, _⟩ => ⟨S3932160, .i1⟩
  | .hbm, ⟨34, _⟩ => ⟨S_, .i32⟩
  | .hbm, ⟨35, _⟩ => ⟨S3932160, .i32⟩
  | .hbm, ⟨36, _⟩ => ⟨S3932160, .i32⟩
  | .hbm, ⟨37, _⟩ => ⟨S3932160, .i32⟩
  | .hbm, ⟨38, _⟩ => ⟨S3932160x1, .i32⟩
  | .hbm, ⟨39, _⟩ => ⟨S3932160, .f32⟩
  | .hbm, ⟨40, _⟩ => ⟨S_, .i32⟩
  | .hbm, ⟨41, _⟩ => ⟨S3932160, .i32⟩
  | .hbm, ⟨42, _⟩ => ⟨S3932160, .i1⟩
  | .hbm, ⟨43, _⟩ => ⟨S_, .i32⟩
  | .hbm, ⟨44, _⟩ => ⟨S3932160, .i32⟩
  | .hbm, ⟨45, _⟩ => ⟨S3932160, .i32⟩
  | .hbm, ⟨46, _⟩ => ⟨S3932160, .i32⟩
  | .hbm, ⟨47, _⟩ => ⟨S3932160x1, .i32⟩
  | .hbm, ⟨48, _⟩ => ⟨S3932160, .f32⟩
  | .hbm, ⟨49, _⟩ => ⟨S3932160, .f32⟩
  | .hbm, ⟨50, _⟩ => ⟨S3932160x1, .f32⟩
  | .hbm, ⟨51, _⟩ => ⟨S_, .i32⟩
  | .hbm, ⟨52, _⟩ => ⟨S3932160, .i32⟩
  | .hbm, ⟨53, _⟩ => ⟨S3932160, .i1⟩
  | .hbm, ⟨54, _⟩ => ⟨S_, .i32⟩
  | .hbm, ⟨55, _⟩ => ⟨S3932160, .i32⟩
  | .hbm, ⟨56, _⟩ => ⟨S3932160, .i32⟩
  | .hbm, ⟨57, _⟩ => ⟨S3932160, .i32⟩
  | .hbm, ⟨58, _⟩ => ⟨S3932160x1, .i32⟩
  | .hbm, ⟨59, _⟩ => ⟨S3932160x64, .f32⟩
  | .hbm, ⟨60, _⟩ => ⟨S3932160x64, .f32⟩
  | .hbm, ⟨61, _⟩ => ⟨S3932160x64, .f32⟩
  | .hbm, ⟨62, _⟩ => ⟨S_, .f32⟩
  | .hbm, ⟨63, _⟩ => ⟨S655488x64, .f32⟩
  | .hbm, ⟨64, _⟩ => ⟨S3932160x1, .i32⟩
  | .hbm, ⟨65, _⟩ => ⟨S655488x64, .f32⟩
  | .hbm, ⟨66, _⟩ => ⟨S655488, .f32⟩
  | .hbm, ⟨67, _⟩ => ⟨S655488x1, .f32⟩
  | .hbm, ⟨68, _⟩ => ⟨S655488x64, .f32⟩
  | .hbm, ⟨69, _⟩ => ⟨S655488x64, .f32⟩
  | .hbm, ⟨70, _⟩ => ⟨S655488x64, .f32⟩
  | .hbm, ⟨71, _⟩ => ⟨S1x64, .f32⟩
  | .hbm, ⟨72, _⟩ => ⟨S655488x64, .f32⟩
  | .hbm, ⟨73, _⟩ => ⟨S655488x64, .f32⟩
  | .hbm, ⟨74, _⟩ => ⟨S_, .f32⟩
  | .hbm, ⟨75, _⟩ => ⟨S655488x64, .f32⟩
  | .hbm, ⟨76, _⟩ => ⟨S655488x64, .i1⟩
  | .hbm, ⟨77, _⟩ => ⟨S_, .f32⟩
  | .hbm, ⟨78, _⟩ => ⟨S655488x64, .f32⟩
  | .hbm, ⟨79, _⟩ => ⟨S655488x64, .i1⟩
  | .hbm, ⟨80, _⟩ => ⟨S_, .f32⟩
  | .hbm, ⟨81, _⟩ => ⟨S_, .f32⟩
  | .hbm, ⟨82, _⟩ => ⟨S655488x64, .f32⟩
  | .hbm, ⟨83, _⟩ => ⟨S655488x64, .f32⟩
  | .hbm, ⟨84, _⟩ => ⟨S655488x64, .f32⟩
  | .hbm, ⟨85, _⟩ => ⟨S_, .f32⟩
  | .hbm, ⟨86, _⟩ => ⟨S655488x64, .f32⟩
  | .hbm, ⟨87, _⟩ => ⟨S655488x64, .f32⟩
  | .hbm, ⟨88, _⟩ => ⟨S655488x64, .f32⟩
  | _, _ => ⟨S163968x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_cst_1 : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_v4 : Ref sig .tc := ⟨.hbm, 83, rfl⟩
abbrev main_call0_v5 : Ref sig .tc := ⟨.hbm, 84, rfl⟩
abbrev main_call0_cst_2 : Ref sig .tc := ⟨.hbm, 85, rfl⟩
abbrev main_call0_v6 : Ref sig .tc := ⟨.hbm, 86, rfl⟩
abbrev main_call0_v7 : Ref sig .tc := ⟨.hbm, 87, rfl⟩
abbrev main_v56 : Ref sig .tc := ⟨.hbm, 88, rfl⟩

abbrev nD : Nat := 1
abbrev τ : Topo := Topo.v7x

variable {F : FTy → Type} [FloatOps F]

class Facts₀ : Prop where
  bcast_S_S655488x128 : S_.BroadcastsInDim S655488x128 (![] : Fin 0 → Fin S655488x128.rank)
  bcast_S_S163968 : S_.BroadcastsInDim S163968 (![] : Fin 0 → Fin S163968.rank)
  bcast_S163968_S163968x1_0 : S163968.BroadcastsInDim S163968x1 (![0] : Fin 1 → Fin S163968x1.rank)
  slices_S2x3932160_S1x3932160_0_0 : S2x3932160.Slices ![0, 0] S1x3932160
  shapeCasts_S1x3932160_S3932160 : S1x3932160.ShapeCasts S3932160
  slices_S2x3932160_S1x3932160_1_0 : S2x3932160.Slices ![1, 0] S1x3932160
  bcast_S_S3932160 : S_.BroadcastsInDim S3932160 (![] : Fin 0 → Fin S3932160.rank)
  bcast_S_S655488 : S_.BroadcastsInDim S655488 (![] : Fin 0 → Fin S655488.rank)
  bcast_S3932160_S3932160x1_0 : S3932160.BroadcastsInDim S3932160x1 (![0] : Fin 1 → Fin S3932160x1.rank)
  bcast_S3932160x1_S3932160x64_0_1 : S3932160x1.BroadcastsInDim S3932160x64 (![0, 1] : Fin 2 → Fin S3932160x64.rank)
  bcast_S_S655488x64 : S_.BroadcastsInDim S655488x64 (![] : Fin 0 → Fin S655488x64.rank)
  bcast_S655488_S655488x1_0 : S655488.BroadcastsInDim S655488x1 (![0] : Fin 1 → Fin S655488x1.rank)
  bcast_S655488x1_S655488x64_0_1 : S655488x1.BroadcastsInDim S655488x64 (![0, 1] : Fin 2 → Fin S655488x64.rank)
  bcast_S64_S1x64_1 : S64.BroadcastsInDim S1x64 (![1] : Fin 1 → Fin S1x64.rank)
  bcast_S1x64_S655488x64_0_1 : S1x64.BroadcastsInDim S655488x64 (![0, 1] : Fin 2 → Fin S655488x64.rank)
  scatter_S655488x128_S163968x1_S163968x128_1_0_0_1_wf : ScatterDims.WF S655488x128 S163968x1 S163968x128 [1] [0] [0] 1
  dot_S655488x128_S128x64_S655488x64_1_0_0_1_n_n_wf : DotDims.WF S655488x128 S128x64 S655488x64 [1] [0] [0] [1] [] []
  scatter_S655488_S3932160x1_S3932160_n_0_0_1_wf : ScatterDims.WF S655488 S3932160x1 S3932160 [] [0] [0] 1
  gather_S655488_S3932160x1_S3932160_n_0_n_n_0_1_1_wf : GatherDims.WF S655488 S3932160x1 S3932160 [] [0] [] [0] [] 1 ![1]
  gather_S655488x64_S3932160x1_S3932160x64_1_0_n_n_0_1_164_wf : GatherDims.WF S655488x64 S3932160x1 S3932160x64 [1] [0] [] [0] [] 1 ![1, 64]
  scatter_S655488x64_S3932160x1_S3932160x64_1_0_0_1_wf : ScatterDims.WF S655488x64 S3932160x1 S3932160x64 [1] [0] [0] 1

variable [Facts₀]

def scatter_S655488x128_S163968x1_S163968x128_1_0_0_1 : ScatterDims S655488x128 S163968x1 S163968x128 where
  updateWindowDims := [1]
  insertedWindowDims := [0]
  scatterDimsToOperandDims := [0]
  indexVectorDim := 1
  wf := scatter_S655488x128_S163968x1_S163968x128_1_0_0_1_wf
def dot_S655488x128_S128x64_S655488x64_1_0_0_1_n_n : DotDims S655488x128 S128x64 S655488x64 where
  lhsContracting := [1]
  rhsContracting := [0]
  lhsNonContracting := [0]
  rhsNonContracting := [1]
  lhsBatch := []
  rhsBatch := []
  wf := dot_S655488x128_S128x64_S655488x64_1_0_0_1_n_n_wf
def scatter_S655488_S3932160x1_S3932160_n_0_0_1 : ScatterDims S655488 S3932160x1 S3932160 where
  updateWindowDims := []
  insertedWindowDims := [0]
  scatterDimsToOperandDims := [0]
  indexVectorDim := 1
  wf := scatter_S655488_S3932160x1_S3932160_n_0_0_1_wf
def gather_S655488_S3932160x1_S3932160_n_0_n_n_0_1_1 : GatherDims S655488 S3932160x1 S3932160 where
  offsetDims := []
  collapsedSliceDims := [0]
  operandBatchingDims := []
  startIndicesBatchingDims := []
  startIndexMap := [0]
  indexVectorDim := 1
  sliceSizes := ![1]
  wf := gather_S655488_S3932160x1_S3932160_n_0_n_n_0_1_1_wf
def gather_S655488x64_S3932160x1_S3932160x64_1_0_n_n_0_1_164 : GatherDims S655488x64 S3932160x1 S3932160x64 where
  offsetDims := [1]
  collapsedSliceDims := [0]
  operandBatchingDims := []
  startIndicesBatchingDims := []
  startIndexMap := [0]
  indexVectorDim := 1
  sliceSizes := ![1, 64]
  wf := gather_S655488x64_S3932160x1_S3932160x64_1_0_n_n_0_1_164_wf
def scatter_S655488x64_S3932160x1_S3932160x64_1_0_0_1 : ScatterDims S655488x64 S3932160x1 S3932160x64 where
  updateWindowDims := [1]
  insertedWindowDims := [0]
  scatterDimsToOperandDims := [0]
  indexVectorDim := 1
  wf := scatter_S655488x64_S3932160x1_S3932160x64_1_0_0_1_wf

class Facts : Prop extends Facts₀ where

variable [Facts]
-- ==== Proof.Spec.lean ====
/-
  What the two programs compute, as pure functions of the five argument arrays.

  x : [163968, 128] coarse features, w : [128, 64], b : [64], e : [2, 3932160] edge list (row 0 the sources, row 1 the
  targets), u : [163968] the fine row each coarse row is written to.  N = 655488 fine rows.

  Both programs unpool (write rows at the fine positions u of a zero table, a later row replacing an earlier one on
  the same position, a position outside [0, N) dropped, a negative one counted from the end first), take
  deg = 1 + (number of edges into a node), nrm = deg^(-1/2), the edge weight nrm[src]·nrm[dst], and sum the
  weighted source rows into their targets (agg); then add the self loop h·nrm² and the bias and apply ELU.
  The kernel multiplies by w BEFORE unpooling (mm then hK), the reference after (hR); everything from h on
  is one chain of operations on e, written once here (nrm, coef, agg, nsq).
-/
import proofs.«100763_j68831145885827_1_alg».proof.Proof.Gen.KernelIdeal
import proofs.«100763_j68831145885827_1_alg».proof.Proof.Gen.ReferenceIdeal
import Idealize.ShloMosaic.Lib.ValueIdx
import Idealize.ShloMosaic.PureOps.Ideal

noncomputable section

namespace Cert.Spec

open Idealize.ShloMosaic Idealize.ShloMosaic.ValueIdx
open Cert.KernelIdeal Cert.KernelIdeal.Facts₀

variable {F : FTy → Type} [FloatOps F]

/-! ## The chain both programs share -/

/-- The fine positions as the column the unpooling scatter reads: a negative position has N added. -/
def unpoolCol (u : IVec S163968 32) : IVec S163968x1 32 :=
  broadcastInDim S163968x1 ![0] bcast_S163968_S163968x1_0
    (select (cmpi .slt u (broadcastInDim S163968 ![] bcast_S_S163968 (constantI S_ 32 0#32)))
      (addi u (broadcastInDim S163968 ![] bcast_S_S163968 (constantI S_ 32 655488#32))) u)

/-- The zero table [N, 64]. -/
def zeros64 : FVec F S655488x64 .f32 :=
  broadcastInDim S655488x64 ![] bcast_S_S655488x64 (constant S_ .f32 0x00000000#32)

/-- The sources and the targets of the edges. -/
def srcOf (e : IVec S2x3932160 32) : IVec S3932160 32 :=
  shapeCast S3932160 (extractStridedSlice S1x3932160 ![0, 0] e slices_S2x3932160_S1x3932160_0_0) shapeCasts_S1x3932160_S3932160
def dstOf (e : IVec S2x3932160 32) : IVec S3932160 32 :=
  shapeCast S3932160 (extractStridedSlice S1x3932160 ![1, 0] e slices_S2x3932160_S1x3932160_1_0) shapeCasts_S1x3932160_S3932160

/-- A node list as an index column, as it is (for a segment sum) and with negatives wrapped (for a gather). -/
def colE (v : IVec S3932160 32) : IVec S3932160x1 32 :=
  broadcastInDim S3932160x1 ![0] bcast_S3932160_S3932160x1_0 v
def wrapE (v : IVec S3932160 32) : IVec S3932160x1 32 :=
  broadcastInDim S3932160x1 ![0] bcast_S3932160_S3932160x1_0
    (select (cmpi .slt v (broadcastInDim S3932160 ![] bcast_S_S3932160 (constantI S_ 32 0#32)))
      (addi v (broadcastInDim S3932160 ![] bcast_S_S3932160 (constantI S_ 32 655488#32))) v)

/-- nrm = (1 + in-degree)^(-1/2). -/
def nrm (e : IVec S2x3932160 32) : FVec F S655488 .f32 :=
  Host.rsqrt
    (addf
      (Host.scatterAdd scatter_S655488_S3932160x1_S3932160_n_0_0_1
        (broadcastInDim S655488 ![] bcast_S_S655488 (constant S_ .f32 0x00000000#32))
        (colE (dstOf e))
        (broadcastInDim S3932160 ![] bcast_S_S3932160 (constant S_ .f32 0x3F800000#32)))
      (broadcastInDim S655488 ![] bcast_S_S655488 (constant S_ .f32 0x3F800000#32)))

/-- The weight of each edge: nrm[src] · nrm[dst]. -/
def coef (e : IVec S2x3932160 32) : FVec F S3932160 .f32 :=
  mulf (Host.gather gather_S655488_S3932160x1_S3932160_n_0_n_n_0_1_1 (nrm e) (wrapE (srcOf e)))
    (Host.gather gather_S655488_S3932160x1_S3932160_n_0_n_n_0_1_1 (nrm e) (wrapE (dstOf e)))

/-- The neighbour sum: for each node the weighted rows h[src] of the edges into it. -/
def agg (h : FVec F S655488x64 .f32) (e : IVec S2x3932160 32) : FVec F S655488x64 .f32 :=
  Host.scatterAdd scatter_S655488x64_S3932160x1_S3932160x64_1_0_0_1 zeros64 (colE (dstOf e))
    (mulf (Host.gather gather_S655488x64_S3932160x1_S3932160x64_1_0_n_n_0_1_164 h (wrapE (srcOf e)))
      (broadcastInDim S3932160x64 ![0, 1] bcast_S3932160x1_S3932160x64_0_1
        (broadcastInDim S3932160x1 ![0] bcast_S3932160_S3932160x1_0 (coef e))))

/-- nrm² as a column [N, 1]. -/
def nsq (e : IVec S2x3932160 32) : FVec F S655488x1 .f32 :=
  broadcastInDim S655488x1 ![0] bcast_S655488_S655488x1_0 (mulf (nrm (F := F) e) (nrm e))

/-! ## The kernel's side -/

/-- The kernel's unpooled features: the rows of hx = x·w written at the fine positions. -/
def hK (hx : FVec F S163968x64 .f32) (u : IVec S163968 32) : FVec F S655488x64 .f32 :=
  Host.scatter scatter_S655488x64_S163968x1_S163968x64_1_0_0_1 (fun _ b => b) zeros64 (unpoolCol u) hx

/-- The bias as a row [1, 64]. -/
def b2d (b : FVec F S64 .f32) : FVec F S1x64 .f32 := shapeCast S1x64 b shapeCasts_S64_S1x64

/-- x·w, entry (p, q): the sum over the 128 input features. -/
def mmAt (x : FVec Ideal S163968x128 .f32) (w : FVec Ideal S128x64 .f32) (p : Fin 163968) (q : Fin 64) : EReal :=
  ∑ k : Fin 128, x (ix2 p k) * w (ix2 k q)
def mm (x : FVec Ideal S163968x128 .f32) (w : FVec Ideal S128x64 .f32) : FVec Ideal S163968x64 .f32 :=
  fun j => mmAt x w (j 0) (j 1)

/-- ELU as the kernel writes it: v where v > 0, else exp v - 1. -/
def eluK (v : Ideal .f32) : Ideal .f32 :=
  Scalar.select (FloatOps.cmpf .ogt v (Scalar.ofBits .f32 0x00000000#32)) v
    (FloatOps.subf (FloatOps.exp v) (Scalar.ofBits .f32 0x3F800000#32))

/-- The kernel's last stage at row p, feature q: ELU of (neighbour sum + self loop + bias). -/
def finAt (a h : FVec Ideal S655488x64 .f32) (s : FVec Ideal S655488x1 .f32) (b : FVec Ideal S1x64 .f32)
    (p : Fin 655488) (q : Fin 64) : EReal :=
  eluK ((a (ix2 p q) + h (ix2 p q) * s (ix2 p (0 : Fin 1))) + b (ix2 (0 : Fin 1) q))
def fin (a h : FVec Ideal S655488x64 .f32) (s : FVec Ideal S655488x1 .f32) (b : FVec Ideal S1x64 .f32) :
    FVec Ideal S655488x64 .f32 :=
  fun j => finAt a h s b (j 0) (j 1)

/-- The kernel's result. -/
def kerOut (x : FVec Ideal S163968x128 .f32) (w : FVec Ideal S128x64 .f32) (b : FVec Ideal S64 .f32)
    (e : IVec S2x3932160 32) (u : IVec S163968 32) : FVec Ideal S655488x64 .f32 :=
  fin (agg (hK (mm x w) u) e) (hK (mm x w) u) (nsq e) (b2d b)

/-! ## The reference's side -/

/-- The reference's unpooled features: the rows of x written at the fine positions of a zero table [N, 128], then
    multiplied by w. -/
def hR (x : FVec F S163968x128 .f32) (w : FVec F S128x64 .f32) (u : IVec S163968 32) : FVec F S655488x64 .f32 :=
  Host.dotGeneral Cert.ReferenceIdeal.dot_S655488x128_S128x64_S655488x64_1_0_0_1_n_n none
    (Host.scatter Cert.ReferenceIdeal.scatter_S655488x128_S163968x1_S163968x128_1_0_0_1 (fun _ b => b)
      (broadcastInDim Cert.ReferenceIdeal.S655488x128 ![] Cert.ReferenceIdeal.Facts₀.bcast_S_S655488x128 (constant S_ .f32 0x00000000#32))
      (unpoolCol u) x)
    w

/-- ELU as jax.nn.elu lowers: v where v > 0, else 1 · expm1 (0 where v > 0, else v). -/
def eluR (v : FVec F S655488x64 .f32) : FVec F S655488x64 .f32 :=
  select (cmpf .ogt v zeros64) v
    (mulf (broadcastInDim S655488x64 ![] bcast_S_S655488x64 (constant S_ .f32 0x3F800000#32))
      (Host.expm1
        (select (cmpf .ogt v zeros64)
          (broadcastInDim S655488x64 ![] bcast_S_S655488x64 (id (constant S_ .f32 0x00000000#32))) v)))

/-- The reference's value before ELU: neighbour sum + self loop + bias. -/
def preR (h : FVec F S655488x64 .f32) (b : FVec F S64 .f32) (e : IVec S2x3932160 32) : FVec F S655488x64 .f32 :=
  addf (addf (agg h e)
      (mulf h (broadcastInDim S655488x64 ![0, 1] Cert.ReferenceIdeal.Facts₀.bcast_S655488x1_S655488x64_0_1 (nsq e))))
    (broadcastInDim S655488x64 ![0, 1] Cert.ReferenceIdeal.Facts₀.bcast_S1x64_S655488x64_0_1
      (broadcastInDim S1x64 ![1] Cert.ReferenceIdeal.Facts₀.bcast_S64_S1x64_1 b))

/-- The reference's result. -/
def refOut (x : FVec F S163968x128 .f32) (w : FVec F S128x64 .f32) (b : FVec F S64 .f32)
    (e : IVec S2x3932160 32) (u : IVec S163968 32) : FVec F S655488x64 .f32 :=
  eluR (preR (hR x w u) b e)

end Cert.Spec

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.Region0.lean ====
/-
  The first launch (the 21 row blocks of x, each multiplied by w): what its output array holds afterwards.
-/
import proofs.«100763_j68831145885827_1_alg».proof.Proof.Gen.KernelIdeal.Frame
import proofs.«100763_j68831145885827_1_alg».proof.Proof.Spec
import proofs.«100763_j68831145885827_1_alg».proof.Proof.LibTile

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-- The all-zero offset of a whole-buffer access. -/
theorem off_zero : (![0, 0] : Fin 2 → Nat) = fun _ => 0 := funext fun a => by fin_cases a <;> rfl

/-- The product's contraction record is the plain one: rows by columns over one shared axis. -/
theorem dot_plain : dot_S7808x128_S128x64_S7808x64_1_0_0_1_n_n = DotDims.plain 7808 128 64 := rfl

/-- The body's product read at (p, q): the sum over the 128 shared coordinates of the row block's entry
    times the weight's. The narrowing of both operands is the identity on extended reals. -/
theorem pay_apply (x0 : Vec Ideal S7808x128 .f32) (x1 : Vec Ideal S128x64 .f32) (p : Fin 7808) (q : Fin 64) :
    k0_pay1 x0 x1 (ix2 p q) = ∑ k : Fin 128, x0 (ix2 p k) * x1 (ix2 k q) := by
  unfold k0_pay1
  rw [dot_plain]
  exact Cert.Tile.matmul_plain_apply none x0 x1 p q

/-- The index maps over the 21 grid points: at point t the row-block windows (x and the output) sit at
    block (t, 0) and the weight window at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of x against the whole of w, summed over the shared axis, is x·w at block t's place in the
    output: row 7808·t + p of x is the row the output's block puts local row p at, and the weight window
    is the whole of w at every point. -/
theorem blk_mm (x : FVec Ideal S163968x128 .f32) (w : FVec Ideal S128x64 .f32) (t : Fin cfg0.N)
    (p : Fin 7808) (q : Fin 64) :
    ∑ k : Fin 128, x (((cfg0.win 0).blk t).view.emb (ix2 p k)) * w (((cfg0.win 1).blk t).view.emb (ix2 k q))
      = Cert.Spec.mm x w (((cfg0.win 2).blk t).view.emb (ix2 p q)) := by
  obtain ⟨e0, e1, e2, e3, e4, e5⟩ := block_index t
  show _ = ∑ k : Fin 128, x (ix2 ((((cfg0.win 2).blk t).view.emb (ix2 p q)) 0) k)
      * w (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ =>
      show win0_0.index t (0 : Fin 2) * 7808 + 1 * p.val = win0_2.index t (0 : Fin 2) * 7808 + 1 * p.val
      omega
    | ⟨1, _⟩ =>
      show win0_0.index t (1 : Fin 2) * 128 + 1 * k.val = k.val
      omega
  have h1 : ((cfg0.win 1).blk t).view.emb (ix2 k q) = ix2 k ((((cfg0.win 2).blk t).view.emb (ix2 p q)) 1) := by
    funext a; apply Fin.ext
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega
  exact congrArg₂ (· * ·) (congrArg x h0) (congrArg w h1)

variable (V : (c : Dev nD) → (b : Ref sig .tc) → Buf (Elt Ideal) ((c : Thread nD τ).loc b))

/-- What point t writes back is block t (rows 7808·t onward) of x·w. -/
theorem flushed_eq (c : Dev nD) (t : Fin cfg0.N) :
    (dat0 V c).flushed 2 t
      = ((cfg0.win 2).blk t).view.read (Elt Ideal) (Cert.Spec.mm (V c main_arg0) (V c main_arg1)) := by
  show (cfg0.win 2).cut (grid0.coords t) ((dat0 V c).after 2 t) = _
  rw [after0_2]
  unfold out0_2
  rw [View.canon_unit_zero off_zero]
  simp only [View.ld_unit_zero (S := S7808x128) off_zero, View.ld_unit_zero (S := S128x64) off_zero]
  funext j
  obtain ⟨p, q, rfl⟩ : ∃ (p : Fin 7808) (q : Fin 64), j = ix2 p q := ⟨j 0, j 1, eq_ix2 j⟩
  exact (pay_apply _ _ p q).trans (blk_mm (V c main_arg0) (V c main_arg1) t p q)

/-- An index of the output array is in point t's block iff each coordinate is in the block's range. -/
theorem mem_blk (t : Fin cfg0.N) (i : S163968x64.Idx) :
    i ∈ ((cfg0.win 2).blk t).view.set ↔ ∀ a : Fin 2, win0_2.index t a * S7808x64.size a ≤ (i a).val ∧ (i a).val < win0_2.index t a * S7808x64.size a + S7808x64.size a := by
  show i ∈ ((View.whole main_v0).slice (win0_2.rect t)).set ↔ _
  rw [View.set_slice_whole, Rect.mem_set_unit]
  exact Iff.rfl

/-- The 21 blocks of 7808 rows tile the 163968 rows: row r is in block r / 7808. -/
theorem cover (i : S163968x64.Idx) :
    ∃ t : Fin cfg0.N, (cfg0.win 2).flush t = true ∧ i ∈ ((cfg0.win 2).blk t).view.set := by
  have hi0 : (i 0).val < 163968 := (i 0).isLt
  have hi1 : (i 1).val < 64 := (i 1).isLt
  have ht : (i 0).val / 7808 < cfg0.N := by show _ < 21; omega
  obtain ⟨-, -, -, -, e4, e5⟩ := block_index ⟨(i 0).val / 7808, ht⟩
  refine ⟨⟨(i 0).val / 7808, ht⟩, flush0_2 _, ?_⟩
  rw [mem_blk]
  intro a
  match a with
  | ⟨0, _⟩ =>
    show win0_2.index ⟨(i 0).val / 7808, ht⟩ (0 : Fin 2) * 7808 ≤ (i 0).val ∧ (i 0).val < win0_2.index ⟨(i 0).val / 7808, ht⟩ (0 : Fin 2) * 7808 + 7808
    rw [e4]; show (i 0).val / 7808 * 7808 ≤ (i 0).val ∧ (i 0).val < (i 0).val / 7808 * 7808 + 7808
    omega
  | ⟨1, _⟩ =>
    show win0_2.index ⟨(i 0).val / 7808, ht⟩ (1 : Fin 2) * 64 ≤ (i 1).val ∧ (i 1).val < win0_2.index ⟨(i 0).val / 7808, ht⟩ (1 : Fin 2) * 64 + 64
    rw [e5]; omega

/-- After the first launch its output array is x·w, entry by entry, of the arrays the launch found. -/
theorem arr0 (c : Dev nD) :
    (dat0 V c).arrAt 2 cfg0.N = Cert.Spec.mm (V c main_arg0) (V c main_arg1) :=
  (dat0 V c).arrAt_eq_of_cover 2 (Cert.Spec.mm (V c main_arg0) (V c main_arg1)) (fun t _ => flushed_eq V c t) cover

end Cert.KernelIdeal.Region0

end
-- ==== Proof.Region1.lean ====
/-
  The second launch (72 row blocks; neighbour sum + self loop + bias, then ELU): what its output array holds afterwards.
-/
import proofs.«100763_j68831145885827_1_alg».proof.Proof.Gen.KernelIdeal.Frame
import proofs.«100763_j68831145885827_1_alg».proof.Proof.Spec
import proofs.«100763_j68831145885827_1_alg».proof.Proof.LibTile

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

/-- The body's stored tile, entry by entry: ELU of (neighbour sum + features · column + bias row), each block read at
    its own coordinates (the column at its row, the bias row at its column). -/
theorem pay_apply (a h : Vec Ideal S9104x64 .f32) (s : Vec Ideal S9104x1 .f32) (b : Vec Ideal S1x64 .f32)
    (p : Fin 9104) (q : Fin 64) :
    k1_pay1 a h s b (ix2 p q)
      = Cert.Spec.eluK ((a (ix2 p q) + h (ix2 p q) * s (ix2 p (0 : Fin 1))) + b (ix2 (0 : Fin 1) q)) := by
  unfold k1_pay1
  show Cert.Spec.eluK
      ((shapeCast S9104x64 a _ (ix2 p q)
          + shapeCast S9104x64 h _ (ix2 p q) * broadcastTo S9104x64 (shapeCast S9104x1 s _) _ (ix2 p q))
        + broadcastTo S9104x64 (shapeCast S1x64 (shapeCast S1x64 b _) _) _ (ix2 p q)) = _
  refine congrArg Cert.Spec.eluK ?_
  refine congrArg₂ (· + ·) (congrArg₂ (· + ·) ?_ (congrArg₂ (· * ·) ?_ ?_)) ?_
  · exact congrFun (shapeCast_self a _) (ix2 p q)
  · exact congrFun (shapeCast_self h _) (ix2 p q)
  · exact (Cert.Tile.broadcastTo_a1_ab_apply _ _ p q).trans (congrFun (shapeCast_self s _) (ix2 p (0 : Fin 1)))
  · exact (broadcastTo_1b_ab_apply _ _ p q).trans
      ((congrFun (shapeCast_self _ _) (ix2 (0 : Fin 1) q)).trans (congrFun (shapeCast_self b _) (ix2 (0 : Fin 1) q)))

variable (V : (c : Dev nD) → (b : Ref sig .tc) → Buf (Elt Ideal) ((c : Thread nD τ).loc b))

/-- The start (0, 0) of a whole-tile access is the zero offset. -/
theorem zero_start : (![0, 0] : Fin 2 → Nat) = fun _ => 0 := funext fun a => by fin_cases a <;> rfl

/-- The printed index maps, decided once over the 72 grid points: the three row-blocked inputs and the output sit at
    block row t, block column 0; the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the entrywise ELU expression of the four arrays: the three row-blocked
    inputs are read at the rows of the output's block, the column at the same rows, the bias row whole. -/
theorem flushed_eq (c : Dev nD) (t : Fin cfg1.N) :
    (dat1 V c).flushed 4 t
      = ((cfg1.win 4).blk t).view.read (Elt Ideal)
          (Cert.Spec.fin (V c main_v47) (V c main_v8) (V c main_v49) (V c main_v50)) := by
  show (cfg1.win 4).cut (grid1.coords t) ((dat1 V c).after 4 t) = _
  rw [after1_4]
  unfold out1_4
  rw [View.canon_unit_zero zero_start]
  simp only [View.ld_unit_zero (S := S9104x64) zero_start, View.ld_unit_zero (S := S9104x1) zero_start,
    View.ld_unit_zero (S := S1x64) zero_start]
  obtain ⟨e00, e01, e10, e11, e20, e21, e30, e31, e40, e41⟩ := idx_facts t
  funext j
  obtain ⟨p, q, rfl⟩ : ∃ (p : Fin 9104) (q : Fin 64), j = ix2 p q := ⟨j 0, j 1, eq_ix2 j⟩
  show k1_pay1 (iblk1 V c 0 t) (iblk1 V c 1 t) (iblk1 V c 2 t) (iblk1 V c 3 t) (ix2 p q) = _
  refine (pay_apply _ _ _ _ p q).trans ?_
  show _ = Cert.Spec.eluK _
  refine congrArg Cert.Spec.eluK ?_
  refine congrArg₂ (· + ·) (congrArg₂ (· + ·) ?_ (congrArg₂ (· * ·) ?_ ?_)) ?_
  · show V c main_v47 (((cfg1.win 0).blk t).view.emb (ix2 p q)) = _
    refine congrArg (V c main_v47) ?_
    funext a; apply Fin.ext
    match a with
    | ⟨0, _⟩ =>
      show win1_0.index t (0 : Fin 2) * 9104 + 1 * p.val = win1_4.index t (0 : Fin 2) * 9104 + 1 * p.val
      omega
    | ⟨1, _⟩ =>
      show win1_0.index t (1 : Fin 2) * 64 + 1 * q.val = win1_4.index t (1 : Fin 2) * 64 + 1 * q.val
      omega
  · show V c main_v8 (((cfg1.win 1).blk t).view.emb (ix2 p q)) = _
    refine congrArg (V c main_v8) ?_
    funext a; apply Fin.ext
    match a with
    | ⟨0, _⟩ =>
      show win1_1.index t (0 : Fin 2) * 9104 + 1 * p.val = win1_4.index t (0 : Fin 2) * 9104 + 1 * p.val
      omega
    | ⟨1, _⟩ =>
      show win1_1.index t (1 : Fin 2) * 64 + 1 * q.val = win1_4.index t (1 : Fin 2) * 64 + 1 * q.val
      omega
  · show V c main_v49 (((cfg1.win 2).blk t).view.emb (ix2 p (0 : Fin 1))) = _
    refine congrArg (V c main_v49) ?_
    funext a; apply Fin.ext
    match a with
    | ⟨0, _⟩ =>
      show win1_2.index t (0 : Fin 2) * 9104 + 1 * p.val = win1_4.index t (0 : Fin 2) * 9104 + 1 * p.val
      omega
    | ⟨1, _⟩ =>
      show win1_2.index t (1 : Fin 2) * 1 + 1 * 0 = 0
      omega
  · show V c main_v50 (((cfg1.win 3).blk t).view.emb (ix2 (0 : Fin 1) q)) = _
    refine congrArg (V c main_v50) ?_
    funext a; apply Fin.ext
    match a with
    | ⟨0, _⟩ =>
      show win1_3.index t (0 : Fin 2) * 1 + 1 * 0 = 0
      omega
    | ⟨1, _⟩ =>
      show win1_3.index t (1 : Fin 2) * 64 + 1 * q.val = win1_4.index t (1 : Fin 2) * 64 + 1 * q.val
      omega

/-- An index of the output array lies in point t's block iff each coordinate is in the block's range on its axis. -/
theorem mem_blk (t : Fin cfg1.N) (i : S655488x64.Idx) :
    i ∈ ((cfg1.win 4).blk t).view.set
      ↔ ∀ a : Fin 2, win1_4.index t a * S9104x64.size a ≤ (i a).val
          ∧ (i a).val < win1_4.index t a * S9104x64.size a + S9104x64.size a := by
  show i ∈ ((View.whole main_v51).slice (win1_4.rect t)).set ↔ _
  rw [View.set_slice_whole, Rect.mem_set_unit]
  exact Iff.rfl

/-- 72 blocks of 9104 rows are the 655488 rows: row r lies in the block of point r / 9104, and every point writes
    its block back. -/
theorem cover (i : S655488x64.Idx) :
    ∃ t : Fin cfg1.N, (cfg1.win 4).flush t = true ∧ i ∈ ((cfg1.win 4).blk t).view.set := by
  have hi0 : (i 0).val < 655488 := (i 0).isLt
  have hi1 : (i 1).val < 64 := (i 1).isLt
  have ht : (i 0).val / 9104 < 72 := by omega
  refine ⟨⟨(i 0).val / 9104, ht⟩, flush1_4 _, ?_⟩
  rw [mem_blk]
  obtain ⟨-, -, -, -, -, -, -, -, e40, e41⟩ := idx_facts ⟨(i 0).val / 9104, ht⟩
  intro a
  match a with
  | ⟨0, _⟩ =>
    show win1_4.index ⟨(i 0).val / 9104, ht⟩ (0 : Fin 2) * 9104 ≤ (i 0).val
      ∧ (i 0).val < win1_4.index ⟨(i 0).val / 9104, ht⟩ (0 : Fin 2) * 9104 + 9104
    rw [e40]
    show (i 0).val / 9104 * 9104 ≤ (i 0).val ∧ (i 0).val < (i 0).val / 9104 * 9104 + 9104
    omega
  | ⟨1, _⟩ =>
    show win1_4.index ⟨(i 0).val / 9104, ht⟩ (1 : Fin 2) * 64 ≤ (i 1).val
      ∧ (i 1).val < win1_4.index ⟨(i 0).val / 9104, ht⟩ (1 : Fin 2) * 64 + 64
    rw [e41]
    omega

/-- After the second launch its output array is, entry by entry, ELU of (neighbour sum + features · nrm² + bias)
    of the four arrays the launch found. -/
theorem arr1 (c : Dev nD) :
    (dat1 V c).arrAt 4 cfg1.N
      = Cert.Spec.fin (V c main_v47) (V c main_v8) (V c main_v49) (V c main_v50) := by
  exact (dat1 V c).arrAt_eq_of_cover 4 _ (fun t _ => flushed_eq V c t) cover

end Cert.KernelIdeal.Region1

end
-- ==== Proof.KernelValue.lean ====
/-
  The kernel program's result as a function of its arguments.

  The result buffer ends at what the second launch leaves (Region1.arr1: ELU of neighbour sum + self loop + bias, entry
  by entry, of the four arrays that launch finds). Those four arrays are written by the host operations between the two
  launches from the first launch's output and the arguments: read back one operation at a time they are the chain of
  Spec (agg, hK, nsq, b2d). The first launch's output is x·w (Region0.arr0), and no operation writes an argument.
-/
import proofs.«100763_j68831145885827_1_alg».proof.Proof.KernelRun
import proofs.«100763_j68831145885827_1_alg».proof.Proof.Region0
import proofs.«100763_j68831145885827_1_alg».proof.Proof.Region1
import proofs.«100763_j68831145885827_1_alg».proof.Proof.Spec
import Idealize.ShloMosaic.Lib.StableHlo.Run

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## After the first launch -/

/-- The first launch's output array: x·w of the launch memory's x and w. -/
theorem W1_v0 (c : Dev nD) :
    W1 m ρ c (Proc.devRef .tc main_v0)
      = Cert.Spec.mm (m ((c : Thread nD τ).loc main_arg0)) (m ((c : Thread nD τ).loc main_arg1)) :=
  (W1_arr m ρ c 2).trans (Cert.KernelIdeal.Region0.arr0 (V0 m ρ) c)

/-- The first launch writes none of b, the edge list, the fine positions. -/
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-! ## The host operations between the launches, read at the four arrays the second launch takes -/

/-- The unpooled features: the first launch's output rows written at the fine positions of a zero table. -/
theorem W2_v8 (c : Dev nD) :
    W2 m ρ c (Proc.devRef .tc main_v8)
      = Cert.Spec.hK (F := Ideal) (W1 m ρ c (Proc.devRef .tc main_v0)) (W1 m ρ c (Proc.devRef .tc main_arg4)) := by
  show StableHlo.after hostOps1 (W1 m ρ c) (Proc.devRef .tc main_v8) = _
  after_results
  rfl

/-- The bias as a row. -/
theorem W2_v50 (c : Dev nD) :
    W2 m ρ c (Proc.devRef .tc main_v50) = Cert.Spec.b2d (F := Ideal) (W1 m ρ c (Proc.devRef .tc main_arg2)) := by
  show StableHlo.after hostOps1 (W1 m ρ c) (Proc.devRef .tc main_v50) = _
  after_results
  rfl

/-- nrm² as a column. -/
theorem W2_v49 (c : Dev nD) :
    W2 m ρ c (Proc.devRef .tc main_v49) = Cert.Spec.nsq (F := Ideal) (W1 m ρ c (Proc.devRef .tc main_arg3)) := by
  show StableHlo.after hostOps1 (W1 m ρ c) (Proc.devRef .tc main_v49) = _
  after_results
  rfl

set_option maxHeartbeats 4000000 in
/-- The neighbour sum of the unpooled features. -/
theorem W2_v47 (c : Dev nD) :
    W2 m ρ c (Proc.devRef .tc main_v47)
      = Cert.Spec.agg (F := Ideal) (Cert.Spec.hK (F := Ideal) (W1 m ρ c (Proc.devRef .tc main_v0)) (W1 m ρ c (Proc.devRef .tc main_arg4)))
          (W1 m ρ c (Proc.devRef .tc main_arg3)) := by
  show StableHlo.after hostOps1 (W1 m ρ c) (Proc.devRef .tc main_v47) = _
  after_results_simp
  rfl

/-! ## The result -/

/-- What the second launch leaves in the result buffer is Spec.kerOut of the launch memory's arguments. -/
theorem out_eq (c : Dev nD) :
    W3 m ρ c (Proc.devRef .tc main_v51)
      = Cert.Spec.kerOut (m ((c : Thread nD τ).loc main_arg0)) (m ((c : Thread nD τ).loc main_arg1))
          (m ((c : Thread nD τ).loc main_arg2)) (m ((c : Thread nD τ).loc main_arg3)) (m ((c : Thread nD τ).loc main_arg4)) := by
  refine (W3_arr m ρ c 4).trans ?_
  rw [Cert.KernelIdeal.Region1.arr1 (V2 m ρ) c]
  show Cert.Spec.fin (W2 m ρ c (Proc.devRef .tc main_v47)) (W2 m ρ c (Proc.devRef .tc main_v8))
      (W2 m ρ c (Proc.devRef .tc main_v49)) (W2 m ρ c (Proc.devRef .tc main_v50)) = _
  rw [W2_v47, W2_v8, W2_v49, W2_v50, W1_v0, W1_arg2, W1_arg3, W1_arg4]
  rfl

/-- Every weakly fair execution of the kernel program terminates with the result buffer at Spec.kerOut of the arguments
    and the arguments unchanged. -/
theorem run : θ_run defs (onTc (τ := τ) (main (F := Ideal))) ⟨m, fun _ => 0, ρ⟩ (fun r => ∀ c : Dev nD,
      r.2.mem ((c.tc : Thread nD τ).loc main_v51)
          = Cert.Spec.kerOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩)
    (Cert.KernelIdeal.Named.run_named m ρ)

end Cert.KernelIdeal.Whole

end
-- ==== Proof.RefRun.lean ====
/-
  The reference program's run: every execution ends with the result buffer at Spec.refOut of the arguments.

  @main is a straight line of tensor operations once its three outlined functions are unfolded at their calls
  (ELU, and the two selects ELU is written with): sixty-nine operations of @main's own and fifteen of the functions'.
  The line is listed below in program order; what the result buffer holds after it is the operations' composed term,
  and that term is Spec.refOut of the five arguments, operation for operation: the unpooling scatter and the product
  with w (hR), the degree normalisation and the weighted neighbour sum (nrm, coef, agg), the self loop and the bias
  (preR), then ELU (eluR).
-/
import proofs.«100763_j68831145885827_1_alg».proof.Proof.Gen.ReferenceIdeal
import proofs.«100763_j68831145885827_1_alg».proof.Proof.Spec
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The argument of @elu as the typed reference its call site builds: @main's %55. -/
abbrev pre : StableHlo.TRef sig ⟨S655488x64, .f32⟩ := .of main_v55

/-- @main's operations in order, the outlined functions' written at their calls over the calls' buffer records:
    the unpooling (1 … 12), the edge list's two rows (13 … 16), the normalisation (17 … 26), the edge weights
    (27 … 46), the weighted neighbour sum (47 … 61), the self loop and the bias (62 … 69), ELU (70 … 84). -/
abbrev ops : List (HloOp τ sig (Elt F)) :=
  [ StableHlo.nullary main_cst (constant S_ .f32 0x00000000#32),
    StableHlo.unary main_cst main_v0 (broadcastInDim S655488x128 ![] bcast_S_S655488x128 : (⟨S_, .f32⟩ : BufTy).Contents (Elt F) → (⟨S655488x128, .f32⟩ : BufTy).Contents (Elt F)),
    StableHlo.nullary main_c (constantI S_ 32 0#32),
    StableHlo.unary main_c main_v1 (broadcastInDim S163968 ![] bcast_S_S163968 : (⟨S_, .i32⟩ : BufTy).Contents (Elt F) → (⟨S163968, .i32⟩ : BufTy).Contents (Elt F)),
    StableHlo.binary main_arg4 main_v1 main_v2 (cmpi .slt : (⟨S163968, .i32⟩ : BufTy).Contents (Elt F) → (⟨S163968, .i32⟩ : BufTy).Contents (Elt F) → (⟨S163968, .i1⟩ : BufTy).Contents (Elt F)),
    StableHlo.nullary main_c_0 (constantI S_ 32 655488#32),
    StableHlo.unary main_c_0 main_v3 (broadcastInDim S163968 ![] bcast_S_S163968 : (⟨S_, .i32⟩ : BufTy).Contents (Elt F) → (⟨S163968, .i32⟩ : BufTy).Contents (Elt F)),
    StableHlo.binary main_arg4 main_v3 main_v4 (addi : (⟨S163968, .i32⟩ : BufTy).Contents (Elt F) → (⟨S163968, .i32⟩ : BufTy).Contents (Elt F) → (⟨S163968, .i32⟩ : BufTy).Contents (Elt F)),
    StableHlo.ternary main_v2 main_v4 main_arg4 main_v5 (select : (⟨S163968, .i1⟩ : BufTy).Contents (Elt F) → (⟨S163968, .i32⟩ : BufTy).Contents (Elt F) → (⟨S163968, .i32⟩ : BufTy).Contents (Elt F) → (⟨S163968, .i32⟩ : BufTy).Contents (Elt F)),
    StableHlo.unary main_v5 main_v6 (broadcastInDim S163968x1 ![0] bcast_S163968_S163968x1_0 : (⟨S163968, .i32⟩ : BufTy).Contents (Elt F) → (⟨S163968x1, .i32⟩ : BufTy).Contents (Elt F)),
    StableHlo.ternary main_v0 main_v6 main_arg0 main_v7 ((fun x i u => Host.scatter scatter_S655488x128_S163968x1_S163968x128_1_0_0_1 (fun _ b => b) x i u) : (⟨S655488x128, .f32⟩ : BufTy).Contents (Elt F) → (⟨S163968x1, .i32⟩ : BufTy).Contents (Elt F) → (⟨S163968x128, .f32⟩ : BufTy).Contents (Elt F) → (⟨S655488x128, .f32⟩ : BufTy).Contents (Elt F)),
    StableHlo.binary main_v7 main_arg1 main_v8 ((fun l r => Host.dotGeneral dot_S655488x128_S128x64_S655488x64_1_0_0_1_n_n none l r) : (⟨S655488x128, .f32⟩ : BufTy).Contents (Elt F) → (⟨S128x64, .f32⟩ : BufTy).Contents (Elt F) → (⟨S655488x64, .f32⟩ : BufTy).Contents (Elt F)),
    StableHlo.unary main_arg3 main_v9 ((extractStridedSlice S1x3932160 ![0, 0] · slices_S2x3932160_S1x3932160_0_0) : (⟨S2x3932160, .i32⟩ : BufTy).Contents (Elt F) → (⟨S1x3932160, .i32⟩ : BufTy).Contents (Elt F)),
    StableHlo.reshape main_v9 main_v10 rfl shapeCasts_S1x3932160_S3932160,
    StableHlo.unary main_arg3 main_v11 ((extractStridedSlice S1x3932160 ![1, 0] · slices_S2x3932160_S1x3932160_1_0) : (⟨S2x3932160, .i32⟩ : BufTy).Contents (Elt F) → (⟨S1x3932160, .i32⟩ : BufTy).Contents (Elt F)),
    StableHlo.reshape main_v11 main_v12 rfl shapeCasts_S1x3932160_S3932160,
    StableHlo.nullary main_cst_1 (constant S_ .f32 0x3F800000#32),
    StableHlo.unary main_cst_1 main_v13 (broadcastInDim S3932160 ![] bcast_S_S3932160 : (⟨S_, .f32⟩ : BufTy).Contents (Elt F) → (⟨S3932160, .f32⟩ : BufTy).Contents (Elt F)),
    StableHlo.nullary main_cst_2 (constant S_ .f32 0x00000000#32),
    StableHlo.unary main_cst_2 main_v14 (broadcastInDim S655488 ![] bcast_S_S655488 : (⟨S_, .f32⟩ : BufTy).Contents (Elt F) → (⟨S655488, .f32⟩ : BufTy).Contents (Elt F)),
    StableHlo.unary main_v12 main_v15 (broadcastInDim S3932160x1 ![0] bcast_S3932160_S3932160x1_0 : (⟨S3932160, .i32⟩ : BufTy).Contents (Elt F) → (⟨S3932160x1, .i32⟩ : BufTy).Contents (Elt F)),
    StableHlo.ternary main_v14 main_v15 main_v13 main_v16 ((fun x i u => Host.scatterAdd scatter_S655488_S3932160x1_S3932160_n_0_0_1 x i u) : (⟨S655488, .f32⟩ : BufTy).Contents (Elt F) → (⟨S3932160x1, .i32⟩ : BufTy).Contents (Elt F) → (⟨S3932160, .f32⟩ : BufTy).Contents (Elt F) → (⟨S655488, .f32⟩ : BufTy).Contents (Elt F)),
    StableHlo.nullary main_cst_3 (constant S_ .f32 0x3F800000#32),
    StableHlo.unary main_cst_3 main_v17 (broadcastInDim S655488 ![] bcast_S_S655488 : (⟨S_, .f32⟩ : BufTy).Contents (Elt F) → (⟨S655488, .f32⟩ : BufTy).Contents (Elt F)),
    StableHlo.binary main_v16 main_v17 main_v18 (addf : (⟨S655488, .f32⟩ : BufTy).Contents (Elt F) → (⟨S655488, .f32⟩ : BufTy).Contents (Elt F) → (⟨S655488, .f32⟩ : BufTy).Contents (Elt F)),
    StableHlo.unary main_v18 main_v19 (Host.rsqrt : (⟨S655488, .f32⟩ : BufTy).Contents (Elt F) → (⟨S655488, .f32⟩ : BufTy).Contents (Elt F)),
    StableHlo.nullary main_c_4 (constantI S_ 32 0#32),
    StableHlo.unary main_c_4 main_v20 (broadcastInDim S3932160 ![] bcast_S_S3932160 : (⟨S_, .i32⟩ : BufTy).Contents (Elt F) → (⟨S3932160, .i32⟩ : BufTy).Contents (Elt F)),
    StableHlo.binary main_v10 main_v20 main_v21 (cmpi .slt : (⟨S3932160, .i32⟩ : BufTy).Contents (Elt F) → (⟨S3932160, .i32⟩ : BufTy).Contents (Elt F) → (⟨S3932160, .i1⟩ : BufTy).Contents (Elt F)),
    StableHlo.nullary main_c_5 (constantI S_ 32 655488#32),
    StableHlo.unary main_c_5 main_v22 (broadcastInDim S3932160 ![] bcast_S_S3932160 : (⟨S_, .i32⟩ : BufTy).Contents (Elt F) → (⟨S3932160, .i32⟩ : BufTy).Contents (Elt F)),
    StableHlo.binary main_v10 main_v22 main_v23 (addi : (⟨S3932160, .i32⟩ : BufTy).Contents (Elt F) → (⟨S3932160, .i32⟩ : BufTy).Contents (Elt F) → (⟨S3932160, .i32⟩ : BufTy).Contents (Elt F)),
    StableHlo.ternary main_v21 main_v23 main_v10 main_v24 (select : (⟨S3932160, .i1⟩ : BufTy).Contents (Elt F) → (⟨S3932160, .i32⟩ : BufTy).Contents (Elt F) → (⟨S3932160, .i32⟩ : BufTy).Contents (Elt F) → (⟨S3932160, .i32⟩ : BufTy).Contents (Elt F)),
    StableHlo.unary main_v24 main_v25 (broadcastInDim S3932160x1 ![0] bcast_S3932160_S3932160x1_0 : (⟨S3932160, .i32⟩ : BufTy).Contents (Elt F) → (⟨S3932160x1, .i32⟩ : BufTy).Contents (Elt F)),
    StableHlo.binary main_v19 main_v25 main_v26 ((fun x i => Host.gather gather_S655488_S3932160x1_S3932160_n_0_n_n_0_1_1 x i) : (⟨S655488, .f32⟩ : BufTy).Contents (Elt F) → (⟨S3932160x1, .i32⟩ : BufTy).Contents (Elt F) → (⟨S3932160, .f32⟩ : BufTy).Contents (Elt F)),
    StableHlo.nullary main_c_6 (constantI S_ 32 0#32),
    StableHlo.unary main_c_6 main_v27 (broadcastInDim S3932160 ![] bcast_S_S3932160 : (⟨S_, .i32⟩ : BufTy).Contents (Elt F) → (⟨S3932160, .i32⟩ : BufTy).Contents (Elt F)),
    StableHlo.binary main_v12 main_v27 main_v28 (cmpi .slt : (⟨S3932160, .i32⟩ : BufTy).Contents (Elt F) → (⟨S3932160, .i32⟩ : BufTy).Contents (Elt F) → (⟨S3932160, .i1⟩ : BufTy).Contents (Elt F)),
    StableHlo.nullary main_c_7 (constantI S_ 32 655488#32),
    StableHlo.unary main_c_7 main_v29 (broadcastInDim S3932160 ![] bcast_S_S3932160 : (⟨S_, .i32⟩ : BufTy).Contents (Elt F) → (⟨S3932160, .i32⟩ : BufTy).Contents (Elt F)),
    StableHlo.binary main_v12 main_v29 main_v30 (addi : (⟨S3932160, .i32⟩ : BufTy).Contents (Elt F) → (⟨S3932160, .i32⟩ : BufTy).Contents (Elt F) → (⟨S3932160, .i32⟩ : BufTy).Contents (Elt F)),
    StableHlo.ternary main_v28 main_v30 main_v12 main_v31 (select : (⟨S3932160, .i1⟩ : BufTy).Contents (Elt F) → (⟨S3932160, .i32⟩ : BufTy).Contents (Elt F) → (⟨S3932160, .i32⟩ : BufTy).Contents (Elt F) → (⟨S3932160, .i32⟩ : BufTy).Contents (Elt F)),
    StableHlo.unary main_v31 main_v32 (broadcastInDim S3932160x1 ![0] bcast_S3932160_S3932160x1_0 : (⟨S3932160, .i32⟩ : BufTy).Contents (Elt F) → (⟨S3932160x1, .i32⟩ : BufTy).Contents (Elt F)),
    StableHlo.binary main_v19 main_v32 main_v33 ((fun x i => Host.gather gather_S655488_S3932160x1_S3932160_n_0_n_n_0_1_1 x i) : (⟨S655488, .f32⟩ : BufTy).Contents (Elt F) → (⟨S3932160x1, .i32⟩ : BufTy).Contents (Elt F) → (⟨S3932160, .f32⟩ : BufTy).Contents (Elt F)),
    StableHlo.binary main_v26 main_v33 main_v34 (mulf : (⟨S3932160, .f32⟩ : BufTy).Contents (Elt F) → (⟨S3932160, .f32⟩ : BufTy).Contents (Elt F) → (⟨S3932160, .f32⟩ : BufTy).Contents (Elt F)),
    StableHlo.unary main_v34 main_v35 (broadcastInDim S3932160x1 ![0] bcast_S3932160_S3932160x1_0 : (⟨S3932160, .f32⟩ : BufTy).Contents (Elt F) → (⟨S3932160x1, .f32⟩ : BufTy).Contents (Elt F)),
    StableHlo.nullary main_c_8 (constantI S_ 32 0#32),
    StableHlo.unary main_c_8 main_v36 (broadcastInDim S3932160 ![] bcast_S_S3932160 : (⟨S_, .i32⟩ : BufTy).Contents (Elt F) → (⟨S3932160, .i32⟩ : BufTy).Contents (Elt F)),
    StableHlo.binary main_v10 main_v36 main_v37 (cmpi .slt : (⟨S3932160, .i32⟩ : BufTy).Contents (Elt F) → (⟨S3932160, .i32⟩ : BufTy).Contents (Elt F) → (⟨S3932160, .i1⟩ : BufTy).Contents (Elt F)),
    StableHlo.nullary main_c_9 (constantI S_ 32 655488#32),
    StableHlo.unary main_c_9 main_v38 (broadcastInDim S3932160 ![] bcast_S_S3932160 : (⟨S_, .i32⟩ : BufTy).Contents (Elt F) → (⟨S3932160, .i32⟩ : BufTy).Contents (Elt F)),
    StableHlo.binary main_v10 main_v38 main_v39 (addi : (⟨S3932160, .i32⟩ : BufTy).Contents (Elt F) → (⟨S3932160, .i32⟩ : BufTy).Contents (Elt F) → (⟨S3932160, .i32⟩ : BufTy).Contents (Elt F)),
    StableHlo.ternary main_v37 main_v39 main_v10 main_v40 (select : (⟨S3932160, .i1⟩ : BufTy).Contents (Elt F) → (⟨S3932160, .i32⟩ : BufTy).Contents (Elt F) → (⟨S3932160, .i32⟩ : BufTy).Contents (Elt F) → (⟨S3932160, .i32⟩ : BufTy).Contents (Elt F)),
    StableHlo.unary main_v40 main_v41 (broadcastInDim S3932160x1 ![0] bcast_S3932160_S3932160x1_0 : (⟨S3932160, .i32⟩ : BufTy).Contents (Elt F) → (⟨S3932160x1, .i32⟩ : BufTy).Contents (Elt F)),
    StableHlo.binary main_v8 main_v41 main_v42 ((fun x i => Host.gather gather_S655488x64_S3932160x1_S3932160x64_1_0_n_n_0_1_164 x i) : (⟨S655488x64, .f32⟩ : BufTy).Contents (Elt F) → (⟨S3932160x1, .i32⟩ : BufTy).Contents (Elt F) → (⟨S3932160x64, .f32⟩ : BufTy).Contents (Elt F)),
    StableHlo.unary main_v35 main_v43 (broadcastInDim S3932160x64 ![0, 1] bcast_S3932160x1_S3932160x64_0_1 : (⟨S3932160x1, .f32⟩ : BufTy).Contents (Elt F) → (⟨S3932160x64, .f32⟩ : BufTy).Contents (Elt F)),
    StableHlo.binary main_v42 main_v43 main_v44 (mulf : (⟨S3932160x64, .f32⟩ : BufTy).Contents (Elt F) → (⟨S3932160x64, .f32⟩ : BufTy).Contents (Elt F) → (⟨S3932160x64, .f32⟩ : BufTy).Contents (Elt F)),
    StableHlo.nullary main_cst_10 (constant S_ .f32 0x00000000#32),
    StableHlo.unary main_cst_10 main_v45 (broadcastInDim S655488x64 ![] bcast_S_S655488x64 : (⟨S_, .f32⟩ : BufTy).Contents (Elt F) → (⟨S655488x64, .f32⟩ : BufTy).Contents (Elt F)),
    StableHlo.unary main_v12 main_v46 (broadcastInDim S3932160x1 ![0] bcast_S3932160_S3932160x1_0 : (⟨S3932160, .i32⟩ : BufTy).Contents (Elt F) → (⟨S3932160x1, .i32⟩ : BufTy).Contents (Elt F)),
    StableHlo.ternary main_v45 main_v46 main_v44 main_v47 ((fun x i u => Host.scatterAdd scatter_S655488x64_S3932160x1_S3932160x64_1_0_0_1 x i u) : (⟨S655488x64, .f32⟩ : BufTy).Contents (Elt F) → (⟨S3932160x1, .i32⟩ : BufTy).Contents (Elt F) → (⟨S3932160x64, .f32⟩ : BufTy).Contents (Elt F) → (⟨S655488x64, .f32⟩ : BufTy).Contents (Elt F)),
    StableHlo.binary main_v19 main_v19 main_v48 (mulf : (⟨S655488, .f32⟩ : BufTy).Contents (Elt F) → (⟨S655488, .f32⟩ : BufTy).Contents (Elt F) → (⟨S655488, .f32⟩ : BufTy).Contents (Elt F)),
    StableHlo.unary main_v48 main_v49 (broadcastInDim S655488x1 ![0] bcast_S655488_S655488x1_0 : (⟨S655488, .f32⟩ : BufTy).Contents (Elt F) → (⟨S655488x1, .f32⟩ : BufTy).Contents (Elt F)),
    StableHlo.unary main_v49 main_v50 (broadcastInDim S655488x64 ![0, 1] bcast_S655488x1_S655488x64_0_1 : (⟨S655488x1, .f32⟩ : BufTy).Contents (Elt F) → (⟨S655488x64, .f32⟩ : BufTy).Contents (Elt F)),
    StableHlo.binary main_v8 main_v50 main_v51 (mulf : (⟨S655488x64, .f32⟩ : BufTy).Contents (Elt F) → (⟨S655488x64, .f32⟩ : BufTy).Contents (Elt F) → (⟨S655488x64, .f32⟩ : BufTy).Contents (Elt F)),
    StableHlo.binary main_v47 main_v51 main_v52 (addf : (⟨S655488x64, .f32⟩ : BufTy).Contents (Elt F) → (⟨S655488x64, .f32⟩ : BufTy).Contents (Elt F) → (⟨S655488x64, .f32⟩ : BufTy).Contents (Elt F)),
    StableHlo.unary main_arg2 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S655488x64 ![0, 1] bcast_S1x64_S655488x64_0_1 : (⟨S1x64, .f32⟩ : BufTy).Contents (Elt F) → (⟨S655488x64, .f32⟩ : BufTy).Contents (Elt F)),
    StableHlo.binary main_v52 main_v54 main_v55 (addf : (⟨S655488x64, .f32⟩ : BufTy).Contents (Elt F) → (⟨S655488x64, .f32⟩ : BufTy).Contents (Elt F) → (⟨S655488x64, .f32⟩ : BufTy).Contents (Elt F)),
    StableHlo.TRef.nullary main_call0.cst (constant S_ .f32 0x00000000#32),
    StableHlo.TRef.unary main_call0.cst main_call0.v0 (broadcastInDim S655488x64 ![] bcast_S_S655488x64),
    StableHlo.TRef.binary pre main_call0.v0 main_call0.v1 (cmpf .ogt),
    StableHlo.TRef.nullary main_call0.cst_0 (constant S_ .f32 0x00000000#32),
    StableHlo.TRef.unary main_call0.cst_0 main_call0.v2 (broadcastInDim S655488x64 ![] bcast_S_S655488x64),
    StableHlo.TRef.binary pre main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S655488x64 ![] bcast_S_S655488x64),
    StableHlo.TRef.ternary main_call0.v3 main_call0.call0.v1 pre main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S655488x64 ![] bcast_S_S655488x64),
    StableHlo.TRef.binary main_call0.v6 main_call0.v5 main_call0.v7 mulf,
    StableHlo.TRef.ternary main_call0.v1 pre main_call0.v7 main_call0.call1.v0 select ]

-- the chain of binds is eighty-four deep
set_option maxRecDepth 8192 in
set_option maxHeartbeats 4000000 in
/-- @main is that straight line: its two windows, the functions' definitions unfolded at their calls and the records
    at their fields, are one chain of steps once sequencing is reassociated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub .., ternary_bufs_sub .., unary_bufs_sub ..,
    ternary_bufs_sub .., binary_bufs_sub .., unary_bufs_sub .., reshape_bufs_sub .., unary_bufs_sub ..,
    reshape_bufs_sub .., nullary_bufs_sub .., unary_bufs_sub .., nullary_bufs_sub .., unary_bufs_sub ..,
    unary_bufs_sub .., ternary_bufs_sub .., nullary_bufs_sub .., unary_bufs_sub .., binary_bufs_sub ..,
    unary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    unary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., binary_bufs_sub .., nullary_bufs_sub .., unary_bufs_sub .., unary_bufs_sub ..,
    ternary_bufs_sub .., binary_bufs_sub .., unary_bufs_sub .., unary_bufs_sub .., binary_bufs_sub ..,
    binary_bufs_sub .., unary_bufs_sub .., unary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

attribute [local irreducible] Host.gather Host.scatter Host.scatterAdd in
set_option maxRecDepth 8192 in
set_option maxHeartbeats 4000000 in
/-- What the result buffer holds after the line is Spec.refOut of what the five argument buffers held before it: the
    fold read back operation by operation is ELU's two selects over the sum of the neighbour sum, the self loop and
    the bias, every shared value (the normalisation, the index columns) the same term at each of its uses; the
    gathers and the scatters are kept folded, the equation never looks inside them. -/
theorem out_eq (V : Valuation τ sig (Elt F)) :
    after ops V (main_v56 : DevRef τ sig)
      = Cert.Spec.refOut (V (main_arg0 : DevRef τ sig)) (V (main_arg1 : DevRef τ sig)) (V (main_arg2 : DevRef τ sig))
          (V (main_arg3 : DevRef τ sig)) (V (main_arg4 : DevRef τ sig)) := by
  after_results_simp
  simp only [Cert.Spec.refOut, Cert.Spec.eluR, Cert.Spec.preR, Cert.Spec.hR, Cert.Spec.agg, Cert.Spec.nsq, Cert.Spec.coef,
    Cert.Spec.nrm, Cert.Spec.colE, Cert.Spec.wrapE, Cert.Spec.srcOf, Cert.Spec.dstOf, Cert.Spec.zeros64, Cert.Spec.unpoolCol]
  rfl

set_option maxHeartbeats 4000000 in
/-- No operation of the line writes an argument's buffer. -/
theorem arg0_eq (V : Valuation τ sig (Elt F)) : after ops V (main_arg0 : DevRef τ sig) = V (main_arg0 : DevRef τ sig) := by
  after_results_simp
set_option maxHeartbeats 4000000 in
theorem arg1_eq (V : Valuation τ sig (Elt F)) : after ops V (main_arg1 : DevRef τ sig) = V (main_arg1 : DevRef τ sig) := by
  after_results_simp
set_option maxHeartbeats 4000000 in
theorem arg2_eq (V : Valuation τ sig (Elt F)) : after ops V (main_arg2 : DevRef τ sig) = V (main_arg2 : DevRef τ sig) := by
  after_results_simp
set_option maxHeartbeats 4000000 in
theorem arg3_eq (V : Valuation τ sig (Elt F)) : after ops V (main_arg3 : DevRef τ sig) = V (main_arg3 : DevRef τ sig) := by
  after_results_simp
set_option maxHeartbeats 4000000 in
theorem arg4_eq (V : Valuation τ sig (Elt F)) : after ops V (main_arg4 : DevRef τ sig) = V (main_arg4 : DevRef τ sig) := by
  after_results_simp

/-- On the device, for any float values, from any memory with zero counters: every weakly fair execution of @main
    terminates with the result buffer at Spec.refOut of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = Cert.Spec.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v56).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.LibRowScatter.lean ====
/-
  A general lemma: StableHLO's accumulating scatter of ROWS into a table at a COLUMN of scatter indices, read at an
  index, over the extended reals.

  What jax's segment_sum(updates, idx, num_segments = N) lowers to for updates [R, C] and an integer vector idx of
  length R: a scatter with an add body into a table [N, C] whose scatter indices are the vector laid out as an [R, 1]
  column (the index vector on the last axis, of length one), the table's axis 0 inserted and scatter-indexed, its axis 1
  the updates' one window axis. Update element (e, c) lands on table element (row, c), where row is idx[e, 0] read as
  a signed integer, and is dropped when that row is outside [0, N). Over the extended reals the result at (i, c) is
  the table's element there plus the sum of the updates (e, c) over the rows e whose index is i.
-/
import Idealize.ShloMosaic.Lib.ValueIdx
import Idealize.ShloMosaic.PureOps.Ideal
import Idealize.ShloMosaic.PureOps.Contract

noncomputable section

namespace Cert.RowScatter

open Idealize.ShloMosaic Idealize.ShloMosaic.ValueIdx

/-- Those dimension numbers, for a table [N, C], scatter indices [R, 1] and updates [R, C]; the conditions wf are
    decided on a program's literal shapes. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

/-- The table's row axis is inserted, so it is not among the kept axes … -/
theorem zero_not_mem_sKept : ¬ (0 : Fin 2) ∈ (rowDims N C R wf).sKept := by
  simp [ScatterDims.sKept, Shape.kept]

/-- … and its column axis is the one kept axis. -/
theorem one_mem_sKept : (1 : Fin 2) ∈ (rowDims N C R wf).sKept := by
  simp [ScatterDims.sKept, Shape.kept]

/-- On the ROW axis the window of update (e, c) starts at the index column's word for row e, read signed. -/
theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  have hsi : (rowDims N C R wf).siIdx (ix2 e c) ⟨List.idxOf (0 : Fin 2) (rowDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the COLUMN axis, which is not scatter-indexed, the window starts at 0. -/
theorem start_col : (rowDims N C R wf).start (ix2 e c) idx (1 : Fin 2) = 0 := by
  unfold ScatterDims.start
  rw [dif_neg (fun h => absurd (congrArg Fin.val (List.mem_singleton.mp h)) Nat.one_ne_zero)]

/-- The window coordinate on the inserted ROW axis is 0. -/
theorem window_row : (rowDims N C R wf).window (ix2 e c) (0 : Fin 2) = 0 := by
  unfold ScatterDims.window
  rw [dif_neg (zero_not_mem_sKept wf)]

/-- The window coordinate on the COLUMN axis is the update's column c. -/
theorem window_col : (rowDims N C R wf).window (ix2 e c) (1 : Fin 2) = c.val := by
  unfold ScatterDims.window
  rw [dif_pos (one_mem_sKept wf)]
  rfl

end

section
variable {N C R w : Nat}
  (wf : ScatterDims.WF ⟨2, ![N, C]⟩ ⟨2, ![R, 1]⟩ ⟨2, ![R, C]⟩ [1] [0] [0] 1)
  (idx : IVec ⟨2, ![R, 1]⟩ w)

/-- WHERE AN UPDATE LANDS: update (e, c') lands on table element (i, c) exactly when row e's scatter index, read
    signed, is i and the columns agree. Start plus window coordinate is (that index, c'); it is inside the table on the
    column axis always, and on the row axis exactly when the index is in [0, N), which i < N gives. -/
theorem resultIdx?_eq_some_iff (e : Fin R) (c' : Fin C) (i : Fin N) (c : Fin C) :
    (rowDims N C R wf).resultIdx? (ix2 e c') idx = some (ix2 i c)
      ↔ (idx (ix2 e (0 : Fin 1))).toInt = (i.val : Int) ∧ c' = c := by
  unfold ScatterDims.resultIdx?
  constructor
  · intro hEq
    split at hEq
    · rename_i h
      have hf := Option.some.inj hEq
      have h0 : ((rowDims N C R wf).start (ix2 e c') idx (0 : Fin 2)
          + ((rowDims N C R wf).window (ix2 e c') (0 : Fin 2) : Nat)).toNat = i.val :=
        congrArg (fun f : (⟨2, ![N, C]⟩ : Shape).Idx => (f (0 : Fin 2)).val) hf
      have h1 : ((rowDims N C R wf).start (ix2 e c') idx (1 : Fin 2)
          + ((rowDims N C R wf).window (ix2 e c') (1 : Fin 2) : Nat)).toNat = c.val :=
        congrArg (fun f : (⟨2, ![N, C]⟩ : Shape).Idx => (f (1 : Fin 2)).val) hf
      have hb : 0 ≤ (rowDims N C R wf).start (ix2 e c') idx (0 : Fin 2)
          + ((rowDims N C R wf).window (ix2 e c') (0 : Fin 2) : Nat) := (h (0 : Fin 2)).1
      rw [start_row, window_row] at h0 hb
      rw [start_col, window_col] at h1
      exact ⟨by omega, Fin.ext (by omega)⟩
    · exact absurd hEq (by simp)
  · rintro ⟨h0, rfl⟩
    have hall : ∀ a : Fin 2, 0 ≤ (rowDims N C R wf).start (ix2 e c') idx a + ((rowDims N C R wf).window (ix2 e c') a : Nat)
        ∧ (rowDims N C R wf).start (ix2 e c') idx a + ((rowDims N C R wf).window (ix2 e c') a : Nat)
            < ((⟨2, ![N, C]⟩ : Shape).size a : Nat) := by
      intro a
      match a with
      | ⟨0, _⟩ =>
        show 0 ≤ (rowDims N C R wf).start (ix2 e c') idx (0 : Fin 2) + ((rowDims N C R wf).window (ix2 e c') (0 : Fin 2) : Nat)
          ∧ (rowDims N C R wf).start (ix2 e c') idx (0 : Fin 2) + ((rowDims N C R wf).window (ix2 e c') (0 : Fin 2) : Nat) < (N : Int)
        rw [start_row, window_row, h0]
        have := i.isLt
        omega
      | ⟨1, _⟩ =>
        show 0 ≤ (rowDims N C R wf).start (ix2 e c') idx (1 : Fin 2) + ((rowDims N C R wf).window (ix2 e c') (1 : Fin 2) : Nat)
          ∧ (rowDims N C R wf).start (ix2 e c') idx (1 : Fin 2) + ((rowDims N C R wf).window (ix2 e c') (1 : Fin 2) : Nat) < (C : Int)
        rw [start_col, window_col]
        have := c'.isLt
        omega
    rw [dif_pos hall]
    refine congrArg some (funext fun a => Fin.ext ?_)
    match a with
    | ⟨0, _⟩ =>
      show ((rowDims N C R wf).start (ix2 e c') idx (0 : Fin 2) + ((rowDims N C R wf).window (ix2 e c') (0 : Fin 2) : Nat)).toNat = i.val
      rw [start_row, window_row, h0]
      omega
    | ⟨1, _⟩ =>
      show ((rowDims N C R wf).start (ix2 e c') idx (1 : Fin 2) + ((rowDims N C R wf).window (ix2 e c') (1 : Fin 2) : Nat)).toNat = c'.val
      rw [start_col, window_col]
      omega

end

/-- THE ACCUMULATING SCATTER READ AT (i, c), over the extended reals: the table there plus the updates (e, c) of the
    rows e whose scatter index, read signed, is i. -/
theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by
  -- The scatter at (i, c) is the table there plus the sum of the updates that land there; the updates that land at
  -- (i, c) are the (e, c) with row e's index equal to i, and e ↦ (e, c) is a bijection onto them with inverse j ↦ j 0.
  unfold Host.scatterAdd
  rw [Ideal.hostScatterAdd_def]
  unfold Ideal.hostScatterAdd
  refine congrArg (x (ix2 i c) + ·) ?_
  symm
  refine Finset.sum_nbij' (fun e : Fin R => (ix2 e c : (⟨2, ![R, C]⟩ : Shape).Idx))
    (fun j : (⟨2, ![R, C]⟩ : Shape).Idx => (j (0 : Fin 2) : Fin R)) ?_ ?_ ?_ ?_ ?_
  · intro e he
    rw [Finset.mem_filter] at he ⊢
    exact ⟨Finset.mem_univ _, (resultIdx?_eq_some_iff wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((resultIdx?_eq_some_iff wf idx a b i c).mp hj.2).1⟩
  · intro e _
    rfl
  · intro j hj
    obtain ⟨a, b, rfl⟩ : ∃ a b, j = ix2 a b := ⟨j 0, j 1, eq_ix2 j⟩
    rw [Finset.mem_filter] at hj
    rw [((resultIdx?_eq_some_iff wf idx a b i c).mp hj.2).2]
  · intro e _
    rfl

end Cert.RowScatter

end
-- ==== Proof.LibRowSet.lean ====
/-
  A general lemma: StableHLO's REPLACING scatter of ROWS into a table at a COLUMN of scatter indices, read at an index.

  What x.at[idx].set(updates) lowers to for updates [R, C] and an integer vector idx of length R: a scatter whose body
  returns the update, into a table [N, C], the scatter indices the vector laid out as an [R, 1] column, the table's
  axis 0 inserted and scatter-indexed, its axis 1 the updates' one window axis. Update element (e, c) lands on table
  element (row, c), where row is idx[e, 0] read as a signed integer, and is dropped when that row is outside [0, N).
  The update elements are taken in row-major order, each replacing the element it lands on. So the result at (i, c)
  is the update (e₀, c) of the LAST row e₀ whose index is i, and the table's own element when no row's index is i.
  Which row that is depends on the index column and on i only — not on the updates, nor on their width C.
-/
import proofs.«100763_j68831145885827_1_alg».proof.Proof.LibRowScatter
import Idealize.ShloMosaic.Lib.ValueIdx
import Mathlib.Data.Finset.Max

noncomputable section

namespace Cert.RowSet

open Idealize.ShloMosaic Idealize.ShloMosaic.ValueIdx Cert.RowScatter

/-! ## A left fold of steps, read at one place -/

section Fold
variable {ι κ α : Type}

/-- If no step of the list changes the value at i', the fold leaves it as it was. -/
theorem foldl_apply_of_untouched (step : (κ → α) → ι → (κ → α)) (i' : κ) :
    ∀ (l : List ι) (x : κ → α), (∀ r n, n ∈ l → step r n i' = r i') → (l.foldl step x) i' = x i'
  | [], _, _ => rfl
  | a :: l, x, h => by
    rw [List.foldl_cons, foldl_apply_of_untouched step i' l (step x a) (fun r n hn => h r n (List.mem_cons_of_mem a hn))]
    exact h x a List.mem_cons_self

/-- Over a strictly increasing list: if the step n₀ sets the value at i' to v whatever was there, and no later step
    changes it, the fold ends with v at i'. -/
theorem foldl_apply_of_last [LinearOrder ι] (step : (κ → α) → ι → (κ → α)) (i' : κ) (v : α) (n₀ : ι)
    (h₀ : ∀ r, step r n₀ i' = v) (hgt : ∀ r n, n₀ < n → step r n i' = r i') :
    ∀ (l : List ι) (x : κ → α), l.Pairwise (· < ·) → n₀ ∈ l → (l.foldl step x) i' = v
  | [], _, _, hm => absurd hm List.not_mem_nil
  | a :: l, x, hp, hm => by
    rw [List.foldl_cons]
    rcases List.mem_cons.mp hm with rfl | hm'
    · rw [foldl_apply_of_untouched step i' l _ (fun r n hn => hgt r n (List.rel_of_pairwise_cons hp hn))]
      exact h₀ x
    · exact foldl_apply_of_last step i' v n₀ h₀ hgt l _ (List.Pairwise.of_cons hp) hm'

end Fold

/-! ## The replacing scatter of rows -/

section
variable {N C R w : Nat} {α : Type}
  (wf : ScatterDims.WF ⟨2, ![N, C]⟩ ⟨2, ![R, 1]⟩ ⟨2, ![R, C]⟩ [1] [0] [0] 1)
  (x : (⟨2, ![N, C]⟩ : Shape).Idx → α) (idx : IVec ⟨2, ![R, 1]⟩ w) (upd : (⟨2, ![R, C]⟩ : Shape).Idx → α)

/-- No row's index is i: the table's own element stays. -/
theorem scatterSet_rows_of_none (i : Fin N) (c : Fin C)
    (h : ∀ e : Fin R, (idx (ix2 e (0 : Fin 1))).toInt ≠ (i.val : Int)) :
    Host.scatter (rowDims N C R wf) (fun _ b => b) x idx upd (ix2 i c) = x (ix2 i c) := by
  unfold Host.scatter
  refine foldl_apply_of_untouched _ (ix2 i c) _ x (fun r n _ => ?_)
  dsimp only
  obtain ⟨e, c', he⟩ : ∃ (e : Fin R) (c' : Fin C), (⟨2, ![R, C]⟩ : Shape).rowMajor.symm n = ix2 e c' :=
    ⟨_, _, eq_ix2 _⟩
  rw [he]
  generalize heq : (rowDims N C R wf).resultIdx? (ix2 e c') idx = o
  cases o with
  | none => rfl
  | some i₁ =>
    show (if ix2 i c = i₁ then upd (ix2 e c') else r (ix2 i c)) = r (ix2 i c)
    rw [if_neg]
    intro hEq
    rw [← hEq] at heq
    exact h e ((resultIdx?_eq_some_iff wf idx e c' i c).mp heq).1

/-- Row e₀'s index is i and no later row's is: the update (e₀, c) is what is left at (i, c). -/
theorem scatterSet_rows_of_last (i : Fin N) (c : Fin C) (e₀ : Fin R)
    (h₀ : (idx (ix2 e₀ (0 : Fin 1))).toInt = (i.val : Int))
    (hmax : ∀ e : Fin R, (idx (ix2 e (0 : Fin 1))).toInt = (i.val : Int) → e ≤ e₀) :
    Host.scatter (rowDims N C R wf) (fun _ b => b) x idx upd (ix2 i c) = upd (ix2 e₀ c) := by
  unfold Host.scatter
  refine foldl_apply_of_last _ (ix2 i c) _ ((⟨2, ![R, C]⟩ : Shape).rowMajor (ix2 e₀ c)) (fun r => ?_) (fun r n hlt => ?_) _ x
    (List.pairwise_lt_finRange _) (List.mem_finRange _)
  · dsimp only
    rw [Equiv.symm_apply_apply, (resultIdx?_eq_some_iff wf idx e₀ c i c).mpr ⟨h₀, rfl⟩]
    show (if ix2 i c = ix2 i c then upd (ix2 e₀ c) else r (ix2 i c)) = upd (ix2 e₀ c)
    rw [if_pos rfl]
  · dsimp only
    obtain ⟨e, c', he⟩ : ∃ (e : Fin R) (c' : Fin C), (⟨2, ![R, C]⟩ : Shape).rowMajor.symm n = ix2 e c' :=
      ⟨_, _, eq_ix2 _⟩
    have hn : n = (⟨2, ![R, C]⟩ : Shape).rowMajor (ix2 e c') := by rw [← he, Equiv.apply_symm_apply]
    rw [he]
    generalize heq : (rowDims N C R wf).resultIdx? (ix2 e c') idx = o
    cases o with
    | none => rfl
    | some i₁ =>
      show (if ix2 i c = i₁ then upd (ix2 e c') else r (ix2 i c)) = r (ix2 i c)
      rw [if_neg]
      intro hEq
      rw [← hEq] at heq
      obtain ⟨h1, hc⟩ := (resultIdx?_eq_some_iff wf idx e c' i c).mp heq
      subst hc
      have hle : e.val ≤ e₀.val := Fin.le_def.mp (hmax e h1)
      rw [hn] at hlt
      have hv := Fin.lt_def.mp hlt
      rw [Shape.rowMajor_val_two, Shape.rowMajor_val_two] at hv
      have hv' : e₀.val * C + c'.val < e.val * C + c'.val := hv
      have := Nat.mul_le_mul_right C hle
      omega

/-- If some row's index is i there is a last such row. -/
theorem exists_last_row (i : Fin N) (h : ∃ e : Fin R, (idx (ix2 e (0 : Fin 1))).toInt = (i.val : Int)) :
    ∃ e₀ : Fin R, (idx (ix2 e₀ (0 : Fin 1))).toInt = (i.val : Int)
      ∧ ∀ e : Fin R, (idx (ix2 e (0 : Fin 1))).toInt = (i.val : Int) → e ≤ e₀ := by
  classical
  have hS : (Finset.univ.filter fun e : Fin R => (idx (ix2 e (0 : Fin 1))).toInt = (i.val : Int)).Nonempty := by
    obtain ⟨e, he⟩ := h
    exact ⟨e, Finset.mem_filter.mpr ⟨Finset.mem_univ _, he⟩⟩
  exact ⟨_, (Finset.mem_filter.mp (Finset.max'_mem _ hS)).2,
    fun e he => Finset.le_max' _ e (Finset.mem_filter.mpr ⟨Finset.mem_univ _, he⟩)⟩

end

end Cert.RowSet

end
-- ==== Proof.Bridge.lean ====
/-
  The two programs compute one function: Spec.kerOut = Spec.refOut on the extended reals, for every input.

  1. The unpooled features agree (hK (x·w) u = hR x w u). Writing rows at the fine positions and multiplying by w on the
     right commute: at a fine row that some coarse row is written to, both sides hold the LAST such coarse row times w
     (which row is last depends on the positions only, not on what is written); at a fine row nothing is written to,
     the kernel's side holds the table's zero and the reference's a sum of products with zero, which is zero on the
     extended reals whatever w holds.
  2. From the features on, both programs apply the same chain to the edge list (agg, nsq), and add the self loop and
     the bias in the same order; the kernel reads the nrm² column and the bias row at their own coordinates where the
     reference first spreads them to the full shape.
  3. ELU: where the value v is positive both give v; elsewhere the kernel gives exp v - 1 and the reference
     1 · expm1 (v), the inner selection returning v there, and expm1 v = exp v - 1 on every extended real.
-/
import proofs.«100763_j68831145885827_1_alg».proof.Proof.Spec
import proofs.«100763_j68831145885827_1_alg».proof.Proof.LibRowSet
import proofs.«100763_j68831145885827_1_alg».proof.Proof.LibTile
import Idealize.ShloMosaic.Lib.Pipeline.Value
import Idealize.ShloMosaic.Lib.ValueLayout
import Idealize.ShloMosaic.PureOps.Ideal.Laws
import Idealize.ShloMosaic.PureOps.IdealRules

noncomputable section

namespace Cert.Bridge

open Idealize.ShloMosaic Idealize.ShloMosaic.ValueIdx
open Cert.KernelIdeal Cert.KernelIdeal.Facts₀
open Cert.Spec

/-! ## The programs' records are the general ones -/

theorem scatK_eq : Cert.KernelIdeal.scatter_S655488x64_S163968x1_S163968x64_1_0_0_1
    = Cert.RowScatter.rowDims 655488 64 163968 scatter_S655488x64_S163968x1_S163968x64_1_0_0_1_wf := rfl

theorem scatR_eq : Cert.ReferenceIdeal.scatter_S655488x128_S163968x1_S163968x128_1_0_0_1
    = Cert.RowScatter.rowDims 655488 128 163968 Cert.ReferenceIdeal.Facts₀.scatter_S655488x128_S163968x1_S163968x128_1_0_0_1_wf := rfl

theorem dotR_eq : Cert.ReferenceIdeal.dot_S655488x128_S128x64_S655488x64_1_0_0_1_n_n = DotDims.plain 655488 128 64 := rfl

/-! ## A host product with one contracted axis, read at an entry -/

/-- An [M, K] by [K, N] host product reads, at (p, q), the sum over the K contracted coordinates of the left operand
    at (p, x) times the right at (x, q). -/
theorem dotGeneral_plain_apply {M K N : ℕ} (prec : Option ContractPrecision)
    (lhs : FVec Ideal ⟨2, ![M, K]⟩ .f32) (rhs : FVec Ideal ⟨2, ![K, N]⟩ .f32) (p : Fin M) (q : Fin N) :
    Host.dotGeneral (F := Ideal) (DotDims.plain M K N) prec lhs rhs (ix2 p q)
      = ∑ x : Fin K, lhs (ix2 p x) * rhs (ix2 x q) := by
  refine (Ideal.dotGeneral_apply (DotDims.plain M K N) prec .single lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact Cert.Tile.lhs_plain_0 _ _
      | ⟨1, _⟩ => exact (Cert.Tile.lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (Cert.Tile.rhs_plain_0 _ _).trans hk
      | ⟨1, _⟩ => exact Cert.Tile.rhs_plain_1 _ _)
  rw [el, er]

/-! ## 1. The unpooled features -/

variable (x : FVec Ideal S163968x128 .f32) (w : FVec Ideal S128x64 .f32) (b : FVec Ideal S64 .f32)
  (e : IVec S2x3932160 32) (u : IVec S163968 32)

/-- The zero tables hold zero. -/
theorem zeros64_apply (j : S655488x64.Idx) : zeros64 (F := Ideal) j = 0 := Ideal.ofBits_zero_f32
theorem zeros128_apply (j : Cert.ReferenceIdeal.S655488x128.Idx) :
    broadcastInDim (α := Ideal .f32) Cert.ReferenceIdeal.S655488x128 ![] Cert.ReferenceIdeal.Facts₀.bcast_S_S655488x128
      (constant (F := Ideal) S_ .f32 0x00000000#32) j = 0 := Ideal.ofBits_zero_f32

/-- Unpooling commutes with the product by w. -/
theorem hK_eq_hR : hK (mm x w) u = hR x w u := by
  funext j
  obtain ⟨n, q, rfl⟩ : ∃ (n : Fin 655488) (q : Fin 64), j = ix2 n q := ⟨j 0, j 1, eq_ix2 j⟩
  unfold hK hR
  rw [scatK_eq, scatR_eq, dotR_eq, dotGeneral_plain_apply]
  by_cases h : ∃ r : Fin 163968, (unpoolCol u (ix2 r (0 : Fin 1))).toInt = (n.val : Int)
  · obtain ⟨r₀, h₀, hmax⟩ := Cert.RowSet.exists_last_row (unpoolCol u) n h
    rw [Cert.RowSet.scatterSet_rows_of_last _ _ _ _ n q r₀ h₀ hmax]
    show mmAt x w r₀ q = _
    unfold mmAt
    refine Finset.sum_congr rfl fun k _ => ?_
    rw [Cert.RowSet.scatterSet_rows_of_last _ _ _ _ n k r₀ h₀ hmax]
  · have h' : ∀ r : Fin 163968, (unpoolCol u (ix2 r (0 : Fin 1))).toInt ≠ (n.val : Int) := fun r hr => h ⟨r, hr⟩
    rw [Cert.RowSet.scatterSet_rows_of_none _ _ _ _ n q h', zeros64_apply]
    symm
    refine Finset.sum_eq_zero fun k _ => ?_
    rw [Cert.RowSet.scatterSet_rows_of_none _ _ _ _ n k h', zeros128_apply, zero_mul]

/-! ## 2. The spread column and row, read at an entry -/

/-- The nrm² column spread along the features reads, at (n, q), the column at n. -/
theorem nsq_spread_apply (s : FVec Ideal S655488x1 .f32) (n : Fin 655488) (q : Fin 64) :
    broadcastInDim S655488x64 ![0, 1] Cert.ReferenceIdeal.Facts₀.bcast_S655488x1_S655488x64_0_1 s (ix2 n q)
      = s (ix2 n (0 : Fin 1)) := by
  refine broadcastInDim_apply _ _ s (ix2 n q) (ix2 n (0 : Fin 1)) fun a => ?_
  match a with
  | ⟨0, _⟩ => rfl
  | ⟨1, _⟩ => rfl

/-- The bias spread along the rows reads, at (n, q), the bias at q; so does the bias row at (0, q). -/
theorem bias_spread_apply (n : Fin 655488) (q : Fin 64) :
    broadcastInDim S655488x64 ![0, 1] Cert.ReferenceIdeal.Facts₀.bcast_S1x64_S655488x64_0_1
        (broadcastInDim S1x64 ![1] Cert.ReferenceIdeal.Facts₀.bcast_S64_S1x64_1 b) (ix2 n q)
      = b (ix1 q) := by
  refine (broadcastInDim_apply _ _ _ (ix2 n q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

theorem b2d_apply (q : Fin 64) : b2d b (ix2 (0 : Fin 1) q) = b (ix1 q) :=
  shapeCast_a_1a_apply b shapeCasts_S64_S1x64 (0 : Fin 1) q

/-! ## 3. ELU -/

/-- The kernel's ELU is the reference's at every extended real. -/
theorem elu_eq (v : EReal) :
    eluK v = Scalar.select (FloatOps.cmpf (F := Ideal) (φ := .f32) .ogt v (0 : EReal)) v
        ((1 : EReal) * (Ideal.exp (Scalar.select (FloatOps.cmpf (F := Ideal) (φ := .f32) .ogt v (0 : EReal)) (0 : EReal) v) - 1)) := by
  unfold eluK
  have hz : Scalar.ofBits (F := Ideal) .f32 0x00000000#32 = (0 : EReal) := Ideal.ofBits_zero_f32
  have h1 : Scalar.ofBits (F := Ideal) .f32 0x3F800000#32 = (1 : EReal) := IdealRules.sign_bit.ideal_onePat .f32
  rw [hz, h1]
  generalize FloatOps.cmpf (F := Ideal) (φ := .f32) .ogt v (0 : EReal) = c
  unfold Scalar.select
  by_cases hc : c = 1
  · rw [if_pos hc, if_pos hc]
  · rw [if_neg hc, if_neg hc, if_neg hc, one_mul]
    rfl

/-! ## The two results -/

/-- The last stage at one entry, over ANY four arrays: the kernel's fused form is the reference's chain of whole-array
    operations read at that entry. -/
theorem out_point (A H : FVec Ideal S655488x64 .f32) (S : FVec Ideal S655488x1 .f32) (b : FVec Ideal S64 .f32)
    (n : Fin 655488) (q : Fin 64) :
    finAt A H S (b2d b) n q
      = eluR (addf (addf A
            (mulf H (broadcastInDim S655488x64 ![0, 1] Cert.ReferenceIdeal.Facts₀.bcast_S655488x1_S655488x64_0_1 S)))
          (broadcastInDim S655488x64 ![0, 1] Cert.ReferenceIdeal.Facts₀.bcast_S1x64_S655488x64_0_1
            (broadcastInDim S1x64 ![1] Cert.ReferenceIdeal.Facts₀.bcast_S64_S1x64_1 b))) (ix2 n q) := by
  unfold finAt
  rw [elu_eq, b2d_apply]
  generalize hV : addf (addf A
            (mulf H (broadcastInDim S655488x64 ![0, 1] Cert.ReferenceIdeal.Facts₀.bcast_S655488x1_S655488x64_0_1 S)))
          (broadcastInDim S655488x64 ![0, 1] Cert.ReferenceIdeal.Facts₀.bcast_S1x64_S655488x64_0_1
            (broadcastInDim S1x64 ![1] Cert.ReferenceIdeal.Facts₀.bcast_S64_S1x64_1 b)) = V
  have hpre : V (ix2 n q) = (A (ix2 n q) + H (ix2 n q) * S (ix2 n (0 : Fin 1))) + b (ix1 q) := by
    rw [← hV]
    show (A (ix2 n q) + H (ix2 n q) * _) + _ = _
    rw [nsq_spread_apply, bias_spread_apply]
  rw [← hpre]
  have h1 : Ideal.ofBits .f32 0x3F800000#32 = (1 : EReal) := IdealRules.sign_bit.ideal_onePat .f32
  have h0 : Ideal.ofBits .f32 0x00000000#32 = (0 : EReal) := Ideal.ofBits_zero_f32
  unfold eluR
  show _ = Scalar.select (FloatOps.cmpf .ogt (V (ix2 n q)) (zeros64 (F := Ideal) (ix2 n q))) (V (ix2 n q))
      (Ideal.ofBits .f32 0x3F800000#32 * (Ideal.exp (Scalar.select (FloatOps.cmpf .ogt (V (ix2 n q)) (zeros64 (F := Ideal) (ix2 n q)))
        (Ideal.ofBits .f32 0x00000000#32) (V (ix2 n q))) - 1))
  rw [zeros64_apply, h0, h1]

/-- The kernel's result is the reference's. -/
theorem kerOut_eq_refOut : kerOut x w b e u = refOut x w b e u := by
  unfold kerOut refOut preR
  rw [hK_eq_hR]
  generalize hR x w u = h
  generalize agg (F := Ideal) h e = A
  generalize nsq (F := Ideal) e = S
  funext j
  obtain ⟨n, q, rfl⟩ : ∃ (n : Fin 655488) (q : Fin 64), j = ix2 n q := ⟨j 0, j 1, eq_ix2 j⟩
  exact out_point A h S b n q

end Cert.Bridge

end
-- ==== Proof.lean ====
/-
  A graph-convolution layer on an unpooled mesh: coarse features x [163968, 128] are written to their fine rows (u) of a
  zero table of 655488 rows, multiplied by w [128, 64], summed over the edge list e with the symmetric weights
  nrm[src] · nrm[dst] (nrm = (1 + in-degree)^(-1/2)), the self loop h · nrm² and the bias b added, and ELU applied.

  The kernel multiplies BEFORE unpooling (x · w in 21 row blocks, then the rows written to the fine positions) and does
  the last stage (neighbour sum + self loop + bias, ELU as v where v > 0 else exp v − 1) in 72 row blocks; the reference
  unpools x and multiplies the [655488, 128] table, and applies ELU with expm1. Over the extended reals the two are one
  function of the arguments for EVERY input (Bridge.kerOut_eq_refOut): unpooling commutes with the product because the
  row written last at a position depends on the positions only and a product with the zero row is zero; the edge stages
  are the same operations in the same order; expm1 v = exp v − 1. So the precondition (finite inputs) is never opened.

  frame_Kernel, frame_KernelIdeal: the generated frame certificates. frame_ReferenceIdeal: the reference's run
  (RefRun.run) with the result dropped. preserves: no operation was rewritten. algebraic: the kernel's run re-posted with
  its result array named (KernelValue.run: the two launches' arrays by Region0.arr0 and Region1.arr1, the host
  operations between them read back) beside the reference's, the arguments' agreement rewritten, the bridge.
-/
import proofs.«100763_j68831145885827_1_alg».proof.Defs
import proofs.«100763_j68831145885827_1_alg».proof.Proof.Gen.Kernel
import proofs.«100763_j68831145885827_1_alg».proof.Proof.Gen.Kernel.Skeleton
import proofs.«100763_j68831145885827_1_alg».proof.Proof.Gen.Kernel.Launch
import proofs.«100763_j68831145885827_1_alg».proof.Proof.Gen.Kernel.Points
import proofs.«100763_j68831145885827_1_alg».proof.Proof.Gen.Kernel.Frame
import proofs.«100763_j68831145885827_1_alg».proof.Proof.Gen.KernelIdeal
import proofs.«100763_j68831145885827_1_alg».proof.Proof.Gen.KernelIdeal.Skeleton
import proofs.«100763_j68831145885827_1_alg».proof.Proof.Gen.KernelIdeal.Launch
import proofs.«100763_j68831145885827_1_alg».proof.Proof.Gen.KernelIdeal.Points
import proofs.«100763_j68831145885827_1_alg».proof.Proof.Gen.KernelIdeal.Frame
import proofs.«100763_j68831145885827_1_alg».proof.Proof.Gen.ReferenceIdeal
import proofs.«100763_j68831145885827_1_alg».proof.Proof.Gen.Pre_finite_inputs
import proofs.«100763_j68831145885827_1_alg».proof.Proof.KernelValue
import proofs.«100763_j68831145885827_1_alg».proof.Proof.RefRun
import proofs.«100763_j68831145885827_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result buffer at one function of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact (Cert.Bridge.kerOut_eq_refOut _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
